-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S100000 : Shape := ⟨1, ![100000]⟩
abbrev S1x256 : Shape := ⟨2, ![1, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x1 .f32) (main_arg1 : IVec S2x3200000 32) (main_arg2 : IVec S100000 32) (main_arg3 : FVec F S1x256 .f32) (main_arg4 : FVec F S256 .f32) (main_arg5 : FVec F S256x1 .f32) (main_arg6 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x256 .f32 := Host.absf main_arg3
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg5
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg6 main_v13 main_v16
-- ==== Kernel.lean ====
abbrev S100000x1 : Shape := ⟨2, ![100000, 1]⟩
abbrev S2x3200000 : Shape := ⟨2, ![2, 3200000]⟩
abbrev S100000 : Shape := ⟨1, ![100000]⟩
abbrev S1x256 : Shape := ⟨2, ![1, 256]⟩
abbrev S256 : Shape := ⟨1, ![256]⟩
abbrev S256x1 : Shape := ⟨2, ![256, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S102400x1 : Shape := ⟨2, ![102400, 1]⟩
abbrev S1x102400 : Shape := ⟨2, ![1, 102400]⟩
abbrev S102400 : Shape := ⟨1, ![102400]⟩
abbrev S2x256x128 : Shape := ⟨3, ![2, 256, 128]⟩
abbrev S2x1x128 : Shape := ⟨3, ![2, 1, 128]⟩
abbrev S1x5120 : Shape := ⟨2, ![1, 5120]⟩
abbrev S1x256x128 : Shape := ⟨3, ![1, 256, 128]⟩
abbrev S1x1x128 : Shape := ⟨3, ![1, 1, 128]⟩
abbrev S256x128 : Shape := ⟨2, ![256, 128]⟩
abbrev S1x128 : Shape := ⟨2, ![1, 128]⟩
abbrev S256x5120 : Shape := ⟨2, ![256, 5120]⟩
abbrev S128x5120 : Shape := ⟨2, ![128, 5120]⟩
abbrev S128x256 : Shape := ⟨2, ![128, 256]⟩
abbrev S128x1 : Shape := ⟨2, ![128, 1]⟩
abbrev S1x1 : Shape := ⟨2, ![1, 1]⟩

abbrev nBuf : Space → Nat
  | .hbm => 53
  | .vmem => 12
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S100000, .i32⟩
  | .hbm, ⟨3, _⟩ => ⟨S1x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x1, .f32⟩
  | .hbm, ⟨20, _⟩ => ⟨S_, .f32⟩
  | .hbm, ⟨21, _⟩ => ⟨S100000x1, .f32⟩
  | .hbm, ⟨22, _⟩ => ⟨S3200000x1, .i32⟩
  | .hbm, ⟨23, _⟩ => ⟨S100000x1, .f32⟩
  | .hbm, ⟨24, _⟩ => ⟨S_, .i32⟩
  | .hbm, ⟨25, _⟩ => ⟨S_, .f32⟩
  | .hbm, ⟨26, _⟩ => ⟨S102400x1, .f32⟩
  | .hbm, ⟨27, _⟩ => ⟨S1x102400, .f32⟩
  | .hbm, ⟨28, _⟩ => ⟨S_, .i32⟩
  | .hbm, ⟨29, _⟩ => ⟨S_, .i32⟩
  | .hbm, ⟨30, _⟩ => ⟨S102400, .i32⟩
  | .hbm, ⟨31, _⟩ => ⟨S1x102400, .i32⟩
  | .hbm, ⟨32, _⟩ => ⟨S256x1, .f32⟩
  | .hbm, ⟨33, _⟩ => ⟨S256x1, .f32⟩
  | .hbm, ⟨34, _⟩ => ⟨S2x256x128, .f32⟩
  | .hbm, ⟨35, _⟩ => ⟨S2x1x128, .f32⟩
  | .hbm, ⟨36, _⟩ => ⟨S_, .f32⟩
  | .hbm, ⟨37, _⟩ => ⟨S256x128, .f32⟩
  | .hbm, ⟨38, _⟩ => ⟨S_, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S256x128, .f32⟩
  | .hbm, ⟨44, _⟩ => ⟨S256x128, .f32⟩
  | .hbm, ⟨45, _⟩ => ⟨S128x256, .f32⟩
  | .hbm, ⟨46, _⟩ => ⟨S128x1, .f32⟩
  | .hbm, ⟨47, _⟩ => ⟨S1x1, .f32⟩
  | .hbm, ⟨48, _⟩ => ⟨S128x1, .f32⟩
  | .hbm, ⟨49, _⟩ => ⟨S128x1, .f32⟩
  | .hbm, ⟨50, _⟩ => ⟨S_, .f32⟩
  | .hbm, ⟨51, _⟩ => ⟨S128x1, .f32⟩
  | .hbm, ⟨52, _⟩ => ⟨S128x1, .f32⟩
  | .local _ .vmem, ⟨0, _⟩ => ⟨S1x5120, .f32⟩
  | .local _ .vmem, ⟨1, _⟩ => ⟨S1x5120, .f32⟩
  | .local _ .vmem, ⟨2, _⟩ => ⟨S1x5120, .i32⟩
  | .local _ .vmem, ⟨3, _⟩ => ⟨S1x5120, .i32⟩
  | .local _ .vmem, ⟨4, _⟩ => ⟨S256x1, .f32⟩
  | .local _ .vmem, ⟨5, _⟩ => ⟨S256x1, .f32⟩
  | .local _ .vmem, ⟨6, _⟩ => ⟨S1x256x128, .f32⟩
  | .local _ .vmem, ⟨7, _⟩ => ⟨S1x256x128, .f32⟩
  | .local _ .vmem, ⟨8, _⟩ => ⟨S1x1x128, .f32⟩
  | .local _ .vmem, ⟨9, _⟩ => ⟨S1x1x128, .f32⟩
  | .local _ .vmem, ⟨10, _⟩ => ⟨S256x128, .f32⟩
  | .local _ .vmem, ⟨11, _⟩ => ⟨S1x128, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call2_cst : Ref sig .tc := ⟨.hbm, 50, rfl⟩
abbrev main_call2_v0 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 10], ![false, false]⟩

def k0_cond2 (i : grid0.Coords) : BitVec 1 :=
  let arg1 : BitVec 32 := BitVec.ofNat 32 (i 1).val
  let c9_i32 : BitVec 32 := 9#32
  let v38 : BitVec 1 := Scalar.cmpi .eq arg1 c9_i32
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5120 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  pads_S100000x1_S102400x1_024000_000 : S100000x1.Pads (![0, 0] : Fin 2 → Nat) ![2400, 0] ![0, 0] S102400x1
  h_S_ : 0 < S_.numel
  shapeCasts_S102400x1_S1x102400 : S102400x1.ShapeCasts S1x102400
  pads_S100000_S102400_024000 : S100000.Pads (![0] : Fin 1 → Nat) ![2400] ![0] S102400
  shapeCasts_S102400_S1x102400 : S102400.ShapeCasts S1x102400
  transposes_S1x256_S256x1_1_0 : S1x256.Transposes [1, 0] S256x1
  shapeCasts_S256_S256x1 : S256.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S1x5120_S256x5120 : S1x5120.Broadcasts S256x5120
  broadcasts_S256x1_S256x5120 : S256x1.Broadcasts S256x5120
  bitsLt_bf16_f32 : FTy.bits .bf16 < FTy.bits .f32
  iota_S128x5120_d0_w32 : S128x5120.Iotas .tc 32 [0]
  broadcasts_S1x5120_S128x5120 : S1x5120.Broadcasts S128x5120
  natLt_1_32 : 1 < 32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x256x128_S256x128_d0 : S2x256x128.ReducesTo [0] S256x128
  reducesTo_S2x1x128_S1x128_d0 : S2x1x128.ReducesTo [0] S1x128
  bcast_S_S1x128 : S_.BroadcastsInDim S1x128 (![] : Fin 0 → Fin S1x128.rank)
  bcast_S1x128_S256x128_0_1 : S1x128.BroadcastsInDim S256x128 (![0, 1] : Fin 2 → Fin S256x128.rank)
  transposes_S256x128_S128x256_1_0 : S256x128.Transposes [1, 0] S128x256
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S256x5120_S128x5120_S256x128_1_1_0_0_n_n_wf : DotDims.WF S256x5120 S128x5120 S256x128 [1] [1] [0] [0] [] []
  dot_S1x5120_S128x5120_S1x128_1_1_0_0_n_n_wf : DotDims.WF S1x5120 S128x5120 S1x128 [1] [1] [0] [0] [] []
  dot_S128x256_S256x1_S128x1_1_0_0_1_n_n_wf : DotDims.WF S128x256 S256x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5120.size a ≤ S1x102400.size a
  hwx0_0 : ∀ i : grid0.Coords, EltTy.bits .f32 = 32 ∨ (Rect.block (s := S1x102400) S1x5120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5120.size a ≤ S1x102400.size a
  hwx0_1 : ∀ i : grid0.Coords, EltTy.bits .i32 = 32 ∨ (Rect.block (s := S1x102400) S1x5120.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S2x256x128.size a
  hwx0_4 : ∀ i : grid0.Coords, EltTy.bits .f32 = 32 ∨ (Rect.block (s := S2x256x128) S1x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S256x5120_S128x5120_S256x128_1_1_0_0_n_n : DotDims S256x5120 S128x5120 S256x128 where
  lhsContracting := [1]
  rhsContracting := [1]
  lhsNonContracting := [0]
  rhsNonContracting := [0]
  lhsBatch := []
  rhsBatch := []
  wf := dot_S256x5120_S128x5120_S256x128_1_1_0_0_n_n_wf
def dot_S1x5120_S128x5120_S1x128_1_1_0_0_n_n : DotDims S1x5120 S128x5120 S1x128 where
  lhsContracting := [1]
  rhsContracting := [1]
  lhsNonContracting := [0]
  rhsNonContracting := [0]
  lhsBatch := []
  rhsBatch := []
  wf := dot_S1x5120_S128x5120_S1x128_1_1_0_0_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

abbrev win0_0 : Pipeline.Window sig grid0 :=
  Pipeline.Window.ofSpec (Memref.whole main_v15) S1x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S1x256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S100000x1 : Shape := ⟨2, ![100000, 1]⟩
abbrev S2x3200000 : Shape := ⟨2, ![2, 3200000]⟩
abbrev S100000 : Shape := ⟨1, ![100000]⟩
abbrev S1x256 : Shape := ⟨2, ![1, 256]⟩
abbrev S256 : Shape := ⟨1, ![256]⟩
abbrev S256x1 : Shape := ⟨2, ![256, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x256 : Shape := ⟨2, ![100000, 256]⟩
abbrev S128x256 : Shape := ⟨2, ![128, 256]⟩
abbrev S128 : Shape := ⟨1, ![128]⟩
abbrev S128x1 : Shape := ⟨2, ![128, 1]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x3200000, .i32⟩
  | .hbm, ⟨2, _⟩ => ⟨S100000, .i32⟩
  | .hbm, ⟨3, _⟩ => ⟨S1x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x1, .f32⟩
  | .hbm, ⟨20, _⟩ => ⟨S_, .f32⟩
  | .hbm, ⟨21, _⟩ => ⟨S100000x1, .f32⟩
  | .hbm, ⟨22, _⟩ => ⟨S3200000x1, .i32⟩
  | .hbm, ⟨23, _⟩ => ⟨S100000x1, .f32⟩
  | .hbm, ⟨24, _⟩ => ⟨S100000x256, .f32⟩
  | .hbm, ⟨25, _⟩ => ⟨S1x256, .f32⟩
  | .hbm, ⟨26, _⟩ => ⟨S100000x256, .f32⟩
  | .hbm, ⟨27, _⟩ => ⟨S100000x256, .f32⟩
  | .hbm, ⟨28, _⟩ => ⟨S_, .f32⟩
  | .hbm, ⟨29, _⟩ => ⟨S100000x256, .f32⟩
  | .hbm, ⟨30, _⟩ => ⟨S100000x256, .f32⟩
  | .hbm, ⟨31, _⟩ => ⟨S_, .f32⟩
  | .hbm, ⟨32, _⟩ => ⟨S128x256, .f32⟩
  | .hbm, ⟨33, _⟩ => ⟨S100000x1, .i32⟩
  | .hbm, ⟨34, _⟩ => ⟨S128x256, .f32⟩
  | .hbm, ⟨35, _⟩ => ⟨S_, .f32⟩
  | .hbm, ⟨36, _⟩ => ⟨S100000, .f32⟩
  | .hbm, ⟨37, _⟩ => ⟨S_, .f32⟩
  | .hbm, ⟨38, _⟩ => ⟨S128, .f32⟩
  | .hbm, ⟨39, _⟩ => ⟨S100000x1, .i32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128x1, .f32⟩
  | .hbm, ⟨45, _⟩ => ⟨S128x256, .f32⟩
  | .hbm, ⟨46, _⟩ => ⟨S128x256, .f32⟩
  | .hbm, ⟨47, _⟩ => ⟨S128x1, .f32⟩
  | .hbm, ⟨48, _⟩ => ⟨S1x1, .f32⟩
  | .hbm, ⟨49, _⟩ => ⟨S128x1, .f32⟩
  | .hbm, ⟨50, _⟩ => ⟨S128x1, .f32⟩
  | .hbm, ⟨51, _⟩ => ⟨S_, .f32⟩
  | .hbm, ⟨52, _⟩ => ⟨S128x1, .f32⟩
  | .hbm, ⟨53, _⟩ => ⟨S128x1, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S128x256 : S_.BroadcastsInDim S128x256 (![] : Fin 0 → Fin S128x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x256_S100000x256_1_0_0_1_n_n_wf : DotDims.WF S100000x1 S1x256 S100000x256 [1] [0] [0] [1] [] []
  scatter_S128x256_S100000x1_S100000x256_1_0_0_1_wf : ScatterDims.WF S128x256 S100000x1 S100000x256 [1] [0] [0] 1
  scatter_S128_S100000x1_S100000_n_0_0_1_wf : ScatterDims.WF S128 S100000x1 S100000 [] [0] [0] 1
  dot_S128x256_S256x1_S128x1_1_0_0_1_n_n_wf : DotDims.WF S128x256 S256x1 S128x1 [1] [0] [0] [1] [] []

variable [Facts₀]

def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x256_S100000x256_1_0_0_1_n_n : DotDims S100000x1 S1x256 S100000x256 where
  lhsContracting := [1]
  rhsContracting := [0]
  lhsNonContracting := [0]
  rhsNonContracting := [1]
  lhsBatch := []
  rhsBatch := []
  wf := dot_S100000x1_S1x256_S100000x256_1_0_0_1_n_n_wf
def scatter_S128x256_S100000x1_S100000x256_1_0_0_1 : ScatterDims S128x256 S100000x1 S100000x256 where
  updateWindowDims := [1]
  insertedWindowDims := [0]
  scatterDimsToOperandDims := [0]
  indexVectorDim := 1
  wf := scatter_S128x256_S100000x1_S100000x256_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

class Facts : Prop extends Facts₀ where

variable [Facts]
-- ==== Proof.Spec.lean ====
/-
  The function both programs compute, written once over the argument arrays.

  A node `i` of the graph has the aggregated feature `agg i` (one number); its hidden row is
  `hid i k = max (agg i * wl k + bl k) 0` for the 256 hidden channels `k`. The nodes are grouped by the
  integer array `batch`: group `g` (of 128) collects the nodes whose entry is the word `g`; a node whose entry is
  no such word belongs to no group. `seg batch v g` is the sum of `v` over group `g`; the pooled row of a group is
  the sum of its hidden rows divided by `max (size of the group) 1`; the result is
  `max (pooled row · wout + bout) 0`. All arithmetic is that of the extended reals.
-/
import Idealize.ShloMosaic.PureOps.Ideal
import Idealize.ShloMosaic.PureOps.IdealRules
import Idealize.ShloMosaic.Lib.ValueIdx

noncomputable section

namespace Cert.Spec

open Idealize.ShloMosaic Idealize.ShloMosaic.ValueIdx

/-- The hidden row of node `i` at channel `k`, after the rectifier. -/
def hid (agg : (⟨2, ![100000, 1]⟩ : Shape).Idx → EReal) (wl : (⟨2, ![1, 256]⟩ : Shape).Idx → EReal)
    (bl : (⟨1, ![256]⟩ : Shape).Idx → EReal) (i : Fin 100000) (k : Fin 256) : EReal :=
  max (agg (ix2 i 0) * wl (ix2 0 k) + bl (ix1 k)) 0

/-- The sum of `v` over the nodes of group `g`: the nodes whose `batch` entry is the word `g`. -/
def seg (batch : (⟨1, ![100000]⟩ : Shape).Idx → BitVec 32) (v : Fin 100000 → EReal) (g : Fin 128) : EReal :=
  ∑ i : Fin 100000, if batch (ix1 i) = BitVec.ofNat 32 g.val then v i else 0

/-- The mean hidden row of group `g` at channel `k` (the sum over an empty group, zero, divided by one). -/
def pooled (agg : (⟨2, ![100000, 1]⟩ : Shape).Idx → EReal) (wl : (⟨2, ![1, 256]⟩ : Shape).Idx → EReal)
    (bl : (⟨1, ![256]⟩ : Shape).Idx → EReal) (batch : (⟨1, ![100000]⟩ : Shape).Idx → BitVec 32)
    (g : Fin 128) (k : Fin 256) : EReal :=
  Ideal.div (seg batch (fun i => hid agg wl bl i k) g) (max (seg batch (fun _ => 1) g) 1)

/-- The result: each group's mean hidden row through the output layer and the rectifier. -/
def out (agg : (⟨2, ![100000, 1]⟩ : Shape).Idx → EReal) (wl : (⟨2, ![1, 256]⟩ : Shape).Idx → EReal)
    (bl : (⟨1, ![256]⟩ : Shape).Idx → EReal) (batch : (⟨1, ![100000]⟩ : Shape).Idx → BitVec 32)
    (wout : (⟨2, ![256, 1]⟩ : Shape).Idx → EReal) (bout : (⟨1, ![1]⟩ : Shape).Idx → EReal) :
    (⟨2, ![128, 1]⟩ : Shape).Idx → EReal := fun j =>
  max ((∑ k : Fin 256, pooled agg wl bl batch (j 0) k * wout (ix2 k 0)) + bout (ix1 0)) 0

/-- The bit patterns of the two float constants the programs use denote zero and one. -/
theorem ofBits_f32_zero : Ideal.ofBits .f32 0x00000000#32 = 0 := by simp [Ideal.ofBits, Ideal.ieee]
theorem ofBits_f32_one : Ideal.ofBits .f32 0x3F800000#32 = 1 := IdealRules.sign_bit.ideal_onePat .f32
theorem ofBits_bf16_one : Ideal.ofBits .bf16 0x3F80#16 = 1 := IdealRules.sign_bit.ideal_onePat .bf16

/-- A group's word is a node's `batch` entry exactly when that entry, read as a signed integer, is the group's number. -/
theorem word_eq_iff (b : BitVec 32) (g : Fin 128) : b = BitVec.ofNat 32 g.val ↔ b.toInt = (g.val : ℤ) := by
  constructor
  · rintro rfl
    exact (by decide : ∀ g : Fin 128, (BitVec.ofNat 32 g.val).toInt = (g.val : ℤ)) g
  · intro h
    apply BitVec.eq_of_toInt_eq
    rw [h]
    exact (by decide : ∀ g : Fin 128, (g.val : ℤ) = (BitVec.ofNat 32 g.val).toInt) g

end Cert.Spec

end
-- ==== Proof.KBlocks.lean ====
/-
  What the kernel's region finds in its four input arrays, and what each grid point's blocks are.

  Before the region the program computes the aggregated feature `agg` (a gather of `x` along the edges' sources
  summed into the edges' targets: `aggK`), pads it with 2400 zeros and lays it out as one row of 102400 lanes;
  pads `batch` with 2400 copies of the word 128 and lays it out the same way; transposes the hidden layer's weights
  to a column and reshapes its bias to a column. So lane `i` of the first row is `agg i` below 100000 and zero
  from there on, lane `i` of the second is `batch i` below 100000 and the word 128 from there on, and the columns
  hold `W_l` and `b_l` (`aarr_apply`, `barr_apply`, `warr_apply`, `larr_apply`). Grid point `t` of 20 reads lanes
  `5120 t … 5120 t + 5119` of the two rows and the two columns whole (`ablk_apply`, `bblk_apply`, `wblk_eq`,
  `lblk_eq`).
-/
import proofs.«425223_j47485158425103_2_alg».proof.Proof.Gen.KernelIdeal.Frame
import proofs.«425223_j47485158425103_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.Lib.Tactic

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen

/-- The aggregated feature: `x` gathered at each edge's source (a negative source counted from the end) and summed
    at the edge's target. -/
def aggK {F : FTy → Type} [FloatOps F] (x0 : FVec F S100000x1 .f32) (x1 : IVec S2x3200000 32) : FVec F S100000x1 .f32 :=
  Host.scatterAdd scatter_S100000x1_S3200000x1_S3200000x1_1_0_0_1
    (broadcastInDim S100000x1 ![] bcast_S_S100000x1 (constant S_ .f32 0x00000000#32))
    (broadcastInDim S3200000x1 ![0] bcast_S3200000_S3200000x1_0 (shapeCast S3200000 (extractStridedSlice S1x3200000 ![1, 0] x1 slices_S2x3200000_S1x3200000_1_0) shapeCasts_S1x3200000_S3200000))
    (Host.gather gather_S100000x1_S3200000x1_S3200000x1_1_0_n_n_0_1_11 x0
      (broadcastInDim S3200000x1 ![0] bcast_S3200000_S3200000x1_0
        (select (cmpi .slt (shapeCast S3200000 (extractStridedSlice S1x3200000 ![0, 0] x1 slices_S2x3200000_S1x3200000_0_0) shapeCasts_S1x3200000_S3200000) (broadcastInDim S3200000 ![] bcast_S_S3200000 (constantI S_ 32 0#32)))
          (addi (shapeCast S3200000 (extractStridedSlice S1x3200000 ![0, 0] x1 slices_S2x3200000_S1x3200000_0_0) shapeCasts_S1x3200000_S3200000) (broadcastInDim S3200000 ![] bcast_S_S3200000 (constantI S_ 32 100000#32)))
          (shapeCast S3200000 (extractStridedSlice S1x3200000 ![0, 0] x1 slices_S2x3200000_S1x3200000_0_0) shapeCasts_S1x3200000_S3200000))))

section AnyValues

variable {F : FTy → Type} [FloatOps F] (m : (ℓ : Loc nD τ sig) → Buf (Elt F) ℓ)

/-- The blocks of a grid point and the arrays of the region, at their literal types. -/
abbrev ablk (c : Dev nD) (t : Fin cfg0.N) : Vec F S1x5120 .f32 := iblk m c 0 t
abbrev bblk (c : Dev nD) (t : Fin cfg0.N) : Vec F S1x5120 .i32 := iblk m c 1 t
abbrev wblk (c : Dev nD) (t : Fin cfg0.N) : Vec F S256x1 .f32 := iblk m c 2 t
abbrev lblk (c : Dev nD) (t : Fin cfg0.N) : Vec F S256x1 .f32 := iblk m c 3 t
abbrev aarr (c : Dev nD) : Vec F S1x102400 .f32 := V m c main_v15
abbrev barr (c : Dev nD) : Vec F S1x102400 .i32 := V m c main_v17
abbrev warr (c : Dev nD) : Vec F S256x1 .f32 := V m c main_v18
abbrev larr (c : Dev nD) : Vec F S256x1 .f32 := V m c main_v19
/-- The arguments, at their literal types. -/
abbrev argX (c : Dev nD) : Vec F S100000x1 .f32 := m ((c : Thread nD τ).loc main_arg0)
abbrev argE (c : Dev nD) : Vec F S2x3200000 .i32 := m ((c : Thread nD τ).loc main_arg1)
abbrev argB (c : Dev nD) : Vec F S100000 .i32 := m ((c : Thread nD τ).loc main_arg2)
abbrev argWl (c : Dev nD) : Vec F S1x256 .f32 := m ((c : Thread nD τ).loc main_arg3)
abbrev argBl (c : Dev nD) : Vec F S256 .f32 := m ((c : Thread nD τ).loc main_arg4)
abbrev argWo (c : Dev nD) : Vec F S256x1 .f32 := m ((c : Thread nD τ).loc main_arg5)
abbrev argBo (c : Dev nD) : Vec F S1 .f32 := m ((c : Thread nD τ).loc main_arg6)

/-! ## The arrays as terms of the arguments -/

set_option maxHeartbeats 2000000 in
theorem aarr_eq (c : Dev nD) : aarr m c
    = shapeCast S1x102400 (pad S102400x1 ![0, 0] ![2400, 0] ![0, 0] (aggK (argX m c) (argE m c))
        (sitofp (F := F) .f32 (constantI S_ 32 0#32)) pads_S100000x1_S102400x1_024000_000 h_S_) shapeCasts_S102400x1_S1x102400 := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.append_nil, List.cons_append, List.nil_append]
  after_results
  try rfl

set_option maxHeartbeats 2000000 in
theorem barr_eq (c : Dev nD) : barr m c
    = shapeCast S1x102400 (pad S102400 ![0] ![2400] ![0] (argB m c) (constantI S_ 32 128#32) pads_S100000_S102400_024000 h_S_) shapeCasts_S102400_S1x102400 := by
  show StableHlo.after (List.flatten [hostOps0, hostOps0_1, hostOps0_2, hostOps0_3, hostOps0_4]) (fun b => m (c, b)) (Proc.devRef .tc main_v17) = _
  simp only [hostOps0, hostOps0_1, hostOps0_2, hostOps0_3, hostOps0_4, List.flatten_cons, List.flatten_nil, List.append_nil, List.cons_append, List.nil_append]
  after_results
  try rfl

set_option maxHeartbeats 2000000 in
theorem warr_eq (c : Dev nD) : warr m c = transpose S256x1 [1, 0] (argWl m c) transposes_S1x256_S256x1_1_0 := by
  show StableHlo.after (List.flatten [hostOps0, hostOps0_1, hostOps0_2, hostOps0_3, hostOps0_4]) (fun b => m (c, b)) (Proc.devRef .tc main_v18) = _
  simp only [hostOps0, hostOps0_1, hostOps0_2, hostOps0_3, hostOps0_4, List.flatten_cons, List.flatten_nil, List.append_nil, List.cons_append, List.nil_append]
  after_results
  try rfl

set_option maxHeartbeats 2000000 in
theorem larr_eq (c : Dev nD) : larr m c = shapeCast S256x1 (argBl m c) shapeCasts_S256_S256x1 := by
  show StableHlo.after (List.flatten [hostOps0, hostOps0_1, hostOps0_2, hostOps0_3, hostOps0_4]) (fun b => m (c, b)) (Proc.devRef .tc main_v19) = _
  simp only [hostOps0, hostOps0_1, hostOps0_2, hostOps0_3, hostOps0_4, List.flatten_cons, List.flatten_nil, List.append_nil, List.cons_append, List.nil_append]
  after_results
  try rfl

end AnyValues

section AtIdeal

variable (m : (ℓ : Loc nD τ sig) → Buf (Elt Ideal) ℓ)

/-! ## The arrays read at a lane -/

/-- Lane `i` of the feature row: `agg i` below 100000, zero in the padding. -/
theorem aarr_apply (c : Dev nD) (i : Fin 102400) :
    aarr m c (ix2 0 i) = if h : i.val < 100000 then aggK (argX m c) (argE m c) (ix2 ⟨i.val, h⟩ 0) else 0 := by
  rw [aarr_eq]
  rw [shapeCast_apply _ shapeCasts_S102400x1_S1x102400 (ix2 (0 : Fin 1) i) (ix2 i (0 : Fin 1))
    (by rw [Shape.rowMajor_val_two, Shape.rowMajor_val_two]; show i.val * 1 + 0 = 0 * 102400 + i.val; omega)]
  by_cases h : i.val < 100000
  · rw [dif_pos h]
    exact pad_apply_of_inside _ _ _ _ _ pads_S100000x1_S102400x1_024000_000 h_S_ _ (ix2 ⟨i.val, h⟩ (0 : Fin 1)) (fun a => by
      match a with
      | ⟨0, _⟩ => show i.val = 0 + i.val * (0 + 1); omega
      | ⟨1, _⟩ => show 0 = 0 + 0 * (0 + 1); omega)
  · rw [dif_neg h]
    rw [pad_apply_of_not_inside _ _ _ _ _ pads_S100000x1_S102400x1_024000_000 h_S_ _ (0 : Fin 2) (by
      show ¬(0 ≤ i.val ∧ (i.val - 0) % (0 + 1) = 0 ∧ (i.val - 0) / (0 + 1) < 100000)
      omega)]
    show (((0#32 : BitVec 32).toInt : ℝ) : EReal) = 0
    simp

/-- Lane `i` of the group row: `batch i` below 100000, the word 128 in the padding. -/
theorem barr_apply (c : Dev nD) (i : Fin 102400) :
    barr m c (ix2 0 i) = if h : i.val < 100000 then argB m c (ix1 ⟨i.val, h⟩) else 128#32 := by
  rw [barr_eq]
  rw [shapeCast_apply _ shapeCasts_S102400_S1x102400 (ix2 (0 : Fin 1) i) (ix1 i)
    (by rw [Shape.rowMajor_val_two, Shape.rowMajor_val_one]; show i.val = 0 * 102400 + i.val; omega)]
  by_cases h : i.val < 100000
  · rw [dif_pos h]
    exact pad_apply_of_inside _ _ _ _ _ pads_S100000_S102400_024000 h_S_ _ (ix1 ⟨i.val, h⟩) (fun a => by
      match a with
      | ⟨0, _⟩ => show i.val = 0 + i.val * (0 + 1); omega)
  · rw [dif_neg h]
    rw [pad_apply_of_not_inside _ _ _ _ _ pads_S100000_S102400_024000 h_S_ _ (0 : Fin 1) (by
      show ¬(0 ≤ i.val ∧ (i.val - 0) % (0 + 1) = 0 ∧ (i.val - 0) / (0 + 1) < 100000)
      omega)]
    rfl

/-- The weights' column at `k` is `W_l` at `(0, k)`; the bias column at `k` is `b_l` at `k`. -/
theorem warr_apply (c : Dev nD) (k : Fin 256) : warr m c (ix2 k 0) = argWl m c (ix2 0 k) := by
  rw [warr_eq]
  exact transpose_ix2_apply _ transposes_S1x256_S256x1_1_0 k (0 : Fin 1)

theorem larr_apply (c : Dev nD) (k : Fin 256) : larr m c (ix2 k 0) = argBl m c (ix1 k) := by
  rw [larr_eq]
  exact shapeCast_apply _ shapeCasts_S256_S256x1 (ix2 k (0 : Fin 1)) (ix1 k)
    (by rw [Shape.rowMajor_val_two, Shape.rowMajor_val_one]; show k.val = k.val * 1 + 0; omega)

end AtIdeal

section Blocks

variable {F : FTy → Type} [FloatOps F] (m : (ℓ : Loc nD τ sig) → Buf (Elt F) ℓ)

/-! ## The blocks of a grid point -/

/-- The printed index maps, decided over the twenty points: the rows' block is the point's number, the columns' is zero. -/
theorem idx_in : ∀ t : Fin cfg0.N, win0_0.index t 0 = 0 ∧ win0_0.index t 1 = t.val ∧ win0_1.index t 0 = 0 ∧ win0_1.index t 1 = t.val
    ∧ win0_2.index t 0 = 0 ∧ win0_2.index t 1 = 0 ∧ win0_3.index t 0 = 0 ∧ win0_3.index t 1 = 0 :=
  (by decide +kernel : ∀ t : Fin grid0.N, _)

theorem ablk_apply (c : Dev nD) (t : Fin cfg0.N) (n : Fin 5120) (h : 5120 * t.val + n.val < 102400) :
    ablk m c t (ix2 0 n) = aarr m c (ix2 0 ⟨5120 * t.val + n.val, h⟩) := by
  unfold ablk iblk
  rw [View.read_apply]
  show V m c main_v15 _ = V m c main_v15 _
  congr 1
  funext a
  apply Fin.ext
  match a with
  | ⟨0, _⟩ => show win0_0.index t 0 * 1 + 1 * 0 = 0; rw [(idx_in t).1]
  | ⟨1, _⟩ => show win0_0.index t 1 * 5120 + 1 * n.val = 5120 * t.val + n.val; rw [(idx_in t).2.1]; omega

theorem bblk_apply (c : Dev nD) (t : Fin cfg0.N) (n : Fin 5120) (h : 5120 * t.val + n.val < 102400) :
    bblk m c t (ix2 0 n) = barr m c (ix2 0 ⟨5120 * t.val + n.val, h⟩) := by
  unfold bblk iblk
  rw [View.read_apply]
  show V m c main_v17 _ = V m c main_v17 _
  congr 1
  funext a
  apply Fin.ext
  match a with
  | ⟨0, _⟩ => show win0_1.index t 0 * 1 + 1 * 0 = 0; rw [(idx_in t).2.2.1]
  | ⟨1, _⟩ => show win0_1.index t 1 * 5120 + 1 * n.val = 5120 * t.val + n.val; rw [(idx_in t).2.2.2.1]; omega

theorem wblk_eq (c : Dev nD) (t : Fin cfg0.N) : wblk m c t = warr m c := by
  funext y
  unfold wblk iblk
  rw [View.read_apply]
  show V m c main_v18 _ = V m c main_v18 _
  congr 1
  funext a
  apply Fin.ext
  match a with
  | ⟨0, _⟩ => show win0_2.index t 0 * 256 + 1 * (y 0).val = (y 0).val; rw [(idx_in t).2.2.2.2.1]; omega
  | ⟨1, _⟩ => show win0_2.index t 1 * 1 + 1 * (y 1).val = (y 1).val; rw [(idx_in t).2.2.2.2.2.1]; omega

theorem lblk_eq (c : Dev nD) (t : Fin cfg0.N) : lblk m c t = larr m c := by
  funext y
  unfold lblk iblk
  rw [View.read_apply]
  show V m c main_v19 _ = V m c main_v19 _
  congr 1
  funext a
  apply Fin.ext
  match a with
  | ⟨0, _⟩ => show win0_3.index t 0 * 256 + 1 * (y 0).val = (y 0).val; rw [(idx_in t).2.2.2.2.2.2.1]; omega
  | ⟨1, _⟩ => show win0_3.index t 1 * 1 + 1 * (y 1).val = (y 1).val; rw [(idx_in t).2.2.2.2.2.2.2]; omega

end Blocks

end Cert.KernelIdeal.KValue
end
-- ==== Proof.Pieces.lean ====
/-
  What one run of the kernel's body leaves in the two accumulators and in the two output blocks, as values.

  The body adds, into the accumulator `sums` [256, 128], the product of the rectified hidden block with the
  one-hot block (`k0_pay7`), and into the accumulator `counts` [1, 128] the column sums of the one-hot block
  (`k0_pay8`). At the first point of a core's row of the grid the accumulators are zeroed first (`k0_pay4`,
  `k0_pay5`), so the addition is onto zero; at the last point the accumulators are copied to the output blocks
  (`k0_pay2`, `k0_pay3`: the same entries with a leading unit axis). Each statement reads the stores of one case
  of the body back: a store through the whole buffer leaves its payload, and a load of the whole buffer reads what
  is there.
-/
import proofs.«425223_j47485158425103_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: `sums` becomes its old contents plus this block's product. -/
theorem sout_B_0 (c : Dev nD) (i : grid0.Coords) (a2 : Memref sig .tc .vmem S1x5120 .f32) (h2 : a2.IsWhole) (a3 : Memref sig .tc .vmem S1x5120 .i32) (h3 : a3.IsWhole) (a4 : Memref sig .tc .vmem S256x1 .f32) (h4 : a4.IsWhole) (a5 : Memref sig .tc .vmem S256x1 .f32) (h5 : a5.IsWhole) (a6 : Memref sig .tc .vmem S1x256x128 .f32) (h6 : a6.IsWhole) (a7 : Memref sig .tc .vmem S1x1x128 .f32) (h7 : a7.IsWhole) (a8 : Memref sig .tc .vmem S256x128 .f32) (h8 : a8.IsWhole) (a9 : Memref sig .tc .vmem S1x128 .f32) (h9 : a9.IsWhole) (hc0 : ¬cond0_0 i) (hc1 : ¬cond0_1 i)
    (x0 : Vec F S1x5120 .f32) (x1 : Vec F S1x5120 .i32) (x2 : Vec F S256x1 .f32) (x3 : Vec F S256x1 .f32) (xs0 : Vec F S256x128 .f32) (xs1 : Vec F S1x128 .f32) :
    sout0_B_0 c i a2 h2 a3 h3 a4 h4 a5 h5 a6 h6 a7 h7 a8 h8 a9 h9 hc0 hc1 x0 x1 x2 x3 xs0 xs1 = k0_pay7 x0 x2 x3 x1 xs0 := by
  unfold sout0_B_0
  rw [View.read_writes_eq_canon _ _ _ (scover0_B_0 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S1x5120) hz2, View.ld_unit_zero (S := S256x1) hz2, View.ld_unit_zero (S := S256x128) hz2, View.ld_unit_zero (S := S1x128) hz2, View.ld_unit_zero (S := S1x256x128) hz3, View.ld_unit_zero (S := S1x1x128) hz3, View.readCov_unit_zero (S := S256x128) _ hz2, View.readCov_unit_zero (S := S1x128) _ hz2]

/-- A middle point: `counts` becomes its old contents plus this block's column sums. -/
theorem sout_B_1 (c : Dev nD) (i : grid0.Coords) (a2 : Memref sig .tc .vmem S1x5120 .f32) (h2 : a2.IsWhole) (a3 : Memref sig .tc .vmem S1x5120 .i32) (h3 : a3.IsWhole) (a4 : Memref sig .tc .vmem S256x1 .f32) (h4 : a4.IsWhole) (a5 : Memref sig .tc .vmem S256x1 .f32) (h5 : a5.IsWhole) (a6 : Memref sig .tc .vmem S1x256x128 .f32) (h6 : a6.IsWhole) (a7 : Memref sig .tc .vmem S1x1x128 .f32) (h7 : a7.IsWhole) (a8 : Memref sig .tc .vmem S256x128 .f32) (h8 : a8.IsWhole) (a9 : Memref sig .tc .vmem S1x128 .f32) (h9 : a9.IsWhole) (hc0 : ¬cond0_0 i) (hc1 : ¬cond0_1 i)
    (x0 : Vec F S1x5120 .f32) (x1 : Vec F S1x5120 .i32) (x2 : Vec F S256x1 .f32) (x3 : Vec F S256x1 .f32) (xs0 : Vec F S256x128 .f32) (xs1 : Vec F S1x128 .f32) :
    sout0_B_1 c i a2 h2 a3 h3 a4 h4 a5 h5 a6 h6 a7 h7 a8 h8 a9 h9 hc0 hc1 x0 x1 x2 x3 xs0 xs1 = k0_pay1 (k0_pay8 x1 xs1) := by
  unfold sout0_B_1
  rw [View.read_writes_eq_canon _ _ _ (scover0_B_1 c i a2 h2 a3 h3 a4 h4 a5 h5 a6 h6 a7 h7 a8 h8 a9 h9 hc0 hc1 x0 x1 x2 x3 xs0 xs1)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S1x5120) hz2, View.ld_unit_zero (S := S256x1) hz2, View.ld_unit_zero (S := S256x128) hz2, View.ld_unit_zero (S := S1x128) hz2, View.ld_unit_zero (S := S1x256x128) hz3, View.ld_unit_zero (S := S1x1x128) hz3, View.readCov_unit_zero (S := S256x128) _ hz2, View.readCov_unit_zero (S := S1x128) _ hz2]

/-- A last point: the accumulators step as at a middle point, -/
theorem sout_C_0 (c : Dev nD) (i : grid0.Coords) (a2 : Memref sig .tc .vmem S1x5120 .f32) (h2 : a2.IsWhole) (a3 : Memref sig .tc .vmem S1x5120 .i32) (h3 : a3.IsWhole) (a4 : Memref sig .tc .vmem S256x1 .f32) (h4 : a4.IsWhole) (a5 : Memref sig .tc .vmem S256x1 .f32) (h5 : a5.IsWhole) (a6 : Memref sig .tc .vmem S1x256x128 .f32) (h6 : a6.IsWhole) (a7 : Memref sig .tc .vmem S1x1x128 .f32) (h7 : a7.IsWhole) (a8 : Memref sig .tc .vmem S256x128 .f32) (h8 : a8.IsWhole) (a9 : Memref sig .tc .vmem S1x128 .f32) (h9 : a9.IsWhole) (hc0 : ¬cond0_0 i) (hc1 : cond0_1 i)
    (x0 : Vec F S1x5120 .f32) (x1 : Vec F S1x5120 .i32) (x2 : Vec F S256x1 .f32) (x3 : Vec F S256x1 .f32) (xs0 : Vec F S256x128 .f32) (xs1 : Vec F S1x128 .f32) :
    sout0_C_0 c i a2 h2 a3 h3 a4 h4 a5 h5 a6 h6 a7 h7 a8 h8 a9 h9 hc0 hc1 x0 x1 x2 x3 xs0 xs1 = k0_pay7 x0 x2 x3 x1 xs0 := by
  unfold sout0_C_0
  rw [View.read_writes_eq_canon _ _ _ (scover0_C_0 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S1x5120) hz2, View.ld_unit_zero (S := S256x1) hz2, View.ld_unit_zero (S := S256x128) hz2, View.ld_unit_zero (S := S1x128) hz2, View.ld_unit_zero (S := S1x256x128) hz3, View.ld_unit_zero (S := S1x1x128) hz3, View.readCov_unit_zero (S := S256x128) _ hz2, View.readCov_unit_zero (S := S1x128) _ hz2]

theorem sout_C_1 (c : Dev nD) (i : grid0.Coords) (a2 : Memref sig .tc .vmem S1x5120 .f32) (h2 : a2.IsWhole) (a3 : Memref sig .tc .vmem S1x5120 .i32) (h3 : a3.IsWhole) (a4 : Memref sig .tc .vmem S256x1 .f32) (h4 : a4.IsWhole) (a5 : Memref sig .tc .vmem S256x1 .f32) (h5 : a5.IsWhole) (a6 : Memref sig .tc .vmem S1x256x128 .f32) (h6 : a6.IsWhole) (a7 : Memref sig .tc .vmem S1x1x128 .f32) (h7 : a7.IsWhole) (a8 : Memref sig .tc .vmem S256x128 .f32) (h8 : a8.IsWhole) (a9 : Memref sig .tc .vmem S1x128 .f32) (h9 : a9.IsWhole) (hc0 : ¬cond0_0 i) (hc1 : cond0_1 i)
    (x0 : Vec F S1x5120 .f32) (x1 : Vec F S1x5120 .i32) (x2 : Vec F S256x1 .f32) (x3 : Vec F S256x1 .f32) (xs0 : Vec F S256x128 .f32) (xs1 : Vec F S1x128 .f32) :
    sout0_C_1 c i a2 h2 a3 h3 a4 h4 a5 h5 a6 h6 a7 h7 a8 h8 a9 h9 hc0 hc1 x0 x1 x2 x3 xs0 xs1 = k0_pay1 (k0_pay8 x1 xs1) := by
  unfold sout0_C_1
  rw [View.read_writes_eq_canon _ _ _ (scover0_C_1 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h9.read_unread, View.ld_unit_zero (S := S1x5120) hz2, View.ld_unit_zero (S := S256x1) hz2, View.ld_unit_zero (S := S256x128) hz2, View.ld_unit_zero (S := S1x128) hz2, View.ld_unit_zero (S := S1x256x128) hz3, View.ld_unit_zero (S := S1x1x128) hz3, View.readCov_unit_zero (S := S256x128) _ hz2, View.readCov_unit_zero (S := S1x128) _ hz2]

/-- and the output blocks receive the accumulators' new contents. -/
theorem out_C_4 (c : Dev nD) (i : grid0.Coords) (a2 : Memref sig .tc .vmem S1x5120 .f32) (h2 : a2.IsWhole) (a3 : Memref sig .tc .vmem S1x5120 .i32) (h3 : a3.IsWhole) (a4 : Memref sig .tc .vmem S256x1 .f32) (h4 : a4.IsWhole) (a5 : Memref sig .tc .vmem S256x1 .f32) (h5 : a5.IsWhole) (a6 : Memref sig .tc .vmem S1x256x128 .f32) (h6 : a6.IsWhole) (a7 : Memref sig .tc .vmem S1x1x128 .f32) (h7 : a7.IsWhole) (a8 : Memref sig .tc .vmem S256x128 .f32) (h8 : a8.IsWhole) (a9 : Memref sig .tc .vmem S1x128 .f32) (h9 : a9.IsWhole) (hc0 : ¬cond0_0 i) (hc1 : cond0_1 i)
    (x0 : Vec F S1x5120 .f32) (x1 : Vec F S1x5120 .i32) (x2 : Vec F S256x1 .f32) (x3 : Vec F S256x1 .f32) (xs0 : Vec F S256x128 .f32) (xs1 : Vec F S1x128 .f32) :
    out0_C_4 c i a2 h2 a3 h3 a4 h4 a5 h5 a6 h6 a7 h7 a8 h8 a9 h9 hc0 hc1 x0 x1 x2 x3 xs0 xs1 = k0_pay2 (k0_pay7 x0 x2 x3 x1 xs0) := by
  unfold out0_C_4
  rw [View.read_writes_eq_canon _ _ _ (cover0_C_4 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S1x5120) hz2, View.ld_unit_zero (S := S256x1) hz2, View.ld_unit_zero (S := S256x128) hz2, View.ld_unit_zero (S := S1x128) hz2, View.ld_unit_zero (S := S1x256x128) hz3, View.ld_unit_zero (S := S1x1x128) hz3, View.readCov_unit_zero (S := S256x128) _ hz2, View.readCov_unit_zero (S := S1x128) _ hz2]

theorem out_C_5 (c : Dev nD) (i : grid0.Coords) (a2 : Memref sig .tc .vmem S1x5120 .f32) (h2 : a2.IsWhole) (a3 : Memref sig .tc .vmem S1x5120 .i32) (h3 : a3.IsWhole) (a4 : Memref sig .tc .vmem S256x1 .f32) (h4 : a4.IsWhole) (a5 : Memref sig .tc .vmem S256x1 .f32) (h5 : a5.IsWhole) (a6 : Memref sig .tc .vmem S1x256x128 .f32) (h6 : a6.IsWhole) (a7 : Memref sig .tc .vmem S1x1x128 .f32) (h7 : a7.IsWhole) (a8 : Memref sig .tc .vmem S256x128 .f32) (h8 : a8.IsWhole) (a9 : Memref sig .tc .vmem S1x128 .f32) (h9 : a9.IsWhole) (hc0 : ¬cond0_0 i) (hc1 : cond0_1 i)
    (x0 : Vec F S1x5120 .f32) (x1 : Vec F S1x5120 .i32) (x2 : Vec F S256x1 .f32) (x3 : Vec F S256x1 .f32) (xs0 : Vec F S256x128 .f32) (xs1 : Vec F S1x128 .f32) :
    out0_C_5 c i a2 h2 a3 h3 a4 h4 a5 h5 a6 h6 a7 h7 a8 h8 a9 h9 hc0 hc1 x0 x1 x2 x3 xs0 xs1 = k0_pay3 (k0_pay1 (k0_pay8 x1 xs1)) := by
  unfold out0_C_5
  rw [View.read_writes_eq_canon _ _ _ (cover0_C_5 c i a2 h2 a3 h3 a4 h4 a5 h5 a6 h6 a7 h7 a8 h8 a9 h9 hc0 hc1 x0 x1 x2 x3 xs0 xs1)]
  unfold kernelRun0_C
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S1x5120) hz2, View.ld_unit_zero (S := S256x1) hz2, View.ld_unit_zero (S := S256x128) hz2, View.ld_unit_zero (S := S1x128) hz2, View.ld_unit_zero (S := S1x256x128) hz3, View.ld_unit_zero (S := S1x1x128) hz3, View.readCov_unit_zero (S := S256x128) _ hz2, View.readCov_unit_zero (S := S1x128) _ hz2]

/-- A first point: the accumulators are zeroed, then stepped. -/
theorem sout_A_0 (c : Dev nD) (i : grid0.Coords) (a2 : Memref sig .tc .vmem S1x5120 .f32) (h2 : a2.IsWhole) (a3 : Memref sig .tc .vmem S1x5120 .i32) (h3 : a3.IsWhole) (a4 : Memref sig .tc .vmem S256x1 .f32) (h4 : a4.IsWhole) (a5 : Memref sig .tc .vmem S256x1 .f32) (h5 : a5.IsWhole) (a6 : Memref sig .tc .vmem S1x256x128 .f32) (h6 : a6.IsWhole) (a7 : Memref sig .tc .vmem S1x1x128 .f32) (h7 : a7.IsWhole) (a8 : Memref sig .tc .vmem S256x128 .f32) (h8 : a8.IsWhole) (a9 : Memref sig .tc .vmem S1x128 .f32) (h9 : a9.IsWhole) (hc0 : cond0_0 i) (hc1 : ¬cond0_1 i)
    (x0 : Vec F S1x5120 .f32) (x1 : Vec F S1x5120 .i32) (x2 : Vec F S256x1 .f32) (x3 : Vec F S256x1 .f32) :
    sout0_A_0 c i a2 h2 a3 h3 a4 h4 a5 h5 a6 h6 a7 h7 a8 h8 a9 h9 hc0 hc1 x0 x1 x2 x3 = k0_pay7 x0 x2 x3 x1 k0_pay4 := by
  unfold sout0_A_0
  rw [View.read_writes_eq_canon _ _ _ (scover0_A_0 c i a2 h2 a3 h3 a4 h4 a5 h5 a6 h6 a7 h7 a8 h8 a9 h9 hc0 hc1 x0 x1 x2 x3)]
  unfold kernelRun0_A
  dsimp only
  sl_unfold_words
  rw [View.canon_cons_unit_zero (S := S256x128) hz2, View.readCov_unit_zero (S := S256x128) _ hz2]
  simp only [View.readAt_eq_ld, h2.read_unread, h3.read_unread, h4.read_unread, h5.read_unread, h6.read_unread, h7.read_unread, h8.read_unread, h9.read_unread, View.ld_unit_zero (S := S1x5120) hz2, View.ld_unit_zero (S := S256x1) hz2, View.ld_unit_zero (S := S256x128) hz2, View.ld_unit_zero (S := S1x128) hz2, View.ld_unit_zero (S := S1x256x128) hz3, View.ld_unit_zero (S := S1x1x128) hz3, View.readCov_unit_zero (S := S256x128) _ hz2, View.readCov_unit_zero (S := S1x128) _ hz2]

theorem sout_A_1 (c : Dev nD) (i : grid0.Coords) (a2 : Memref sig .tc .vmem S1x5120 .f32) (h2 : a2.IsWhole) (a3 : Memref sig .tc .vmem S1x5120 .i32) (h3 : a3.IsWhole) (a4 : Memref sig .tc .vmem S256x1 .f32) (h4 : a4.IsWhole) (a5 : Memref sig .tc .vmem S256x1 .f32) (h5 : a5.IsWhole) (a6 : Memref sig .tc .vmem S1x256x128 .f32) (h6 : a6.IsWhole) (a7 : Memref sig .tc .vmem S1x1x128 .f32) (h7 : a7.IsWhole) (a8 : Memref sig .tc .vmem S256x128 .f32) (h8 : a8.IsWhole) (a9 : Memref sig .tc .vmem S1x128 .f32) (h9 : a9.IsWhole) (hc0 : cond0_0 i) (hc1 : ¬cond0_1 i)
    (x0 : Vec F S1x5120 .f32) (x1 : Vec F S1x5120 .i32) (x2 : Vec F S256x1 .f32) (x3 : Vec F S256x1 .f32) :
    sout0_A_1 c i a2 h2 a3 h3 a4 h4 a5 h5 a6 h6 a7 h7 a8 h8 a9 h9 hc0 hc1 x0 x1 x2 x3 = k0_pay1 (k0_pay8 x1 k0_pay5) := by
  unfold sout0_A_1
  rw [View.read_writes_eq_canon _ _ _ (scover0_A_1 c i a2 h2 a3 h3 a4 h4 a5 h5 a6 h6 a7 h7 a8 h8 a9 h9 hc0 hc1 x0 x1 x2 x3)]
  unfold kernelRun0_A
  dsimp only
  sl_unfold_words
  rw [View.canon_cons_unit_zero (S := S1x128) hz2, View.readCov_unit_zero (S := S1x128) _ hz2]
  simp only [View.readAt_eq_ld, h2.read_unread, h3.read_unread, h4.read_unread, h5.read_unread, h6.read_unread, h7.read_unread, h8.read_unread, h9.read_unread, View.ld_unit_zero (S := S1x5120) hz2, View.ld_unit_zero (S := S256x1) hz2, View.ld_unit_zero (S := S256x128) hz2, View.ld_unit_zero (S := S1x128) hz2, View.ld_unit_zero (S := S1x256x128) hz3, View.ld_unit_zero (S := S1x1x128) hz3, View.readCov_unit_zero (S := S256x128) _ hz2, View.readCov_unit_zero (S := S1x128) _ hz2]

end Cert.KernelIdeal.Pieces
end
-- ==== Proof.Payload.lean ====
/-
  The body's arithmetic read entry by entry, at the extended reals.

  The one-hot block has at (g, n) the number one when column n of the `batch` block is the word g, else zero
  (`onehot_apply`). The rectified hidden block has at (k, n) `max (agg n * wl k + bl k) 0` (`hidden_apply`). A
  product contracted over the columns is the sum over the 5120 columns of the products of the entries
  (`matmul_sums_apply`, `matmul_counts_apply`), and a product with a zero or a one of the one-hot block is zero
  or the other factor, so the step of `sums` at (k, g) adds the hidden entries of the columns whose word is g, and
  the step of `counts` at g adds one for each such column (`pay7_apply`, `pay8_apply`).
-/
import proofs.«425223_j47485158425103_2_alg».proof.Proof.Gen.KernelIdeal.Skeleton
import proofs.«425223_j47485158425103_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open Idealize.ShloMosaic Idealize.ShloMosaic.TcCoe Idealize.SL.Sem Idealize.ShloMosaic.ValueIdx

namespace Cert.KernelIdeal.Payload
open Cert.KernelIdeal Cert.KernelIdeal.Gen

theorem lhs_sums_0 (i : S256x128.Idx) (q : dot_S256x5120_S128x5120_S256x128_1_1_0_0_n_n.contr.Idx) :
    (dot_S256x5120_S128x5120_S256x128_1_1_0_0_n_n.lhsIdx i q 0).val = (i 0).val := by
  unfold DotDims.lhsIdx
  rw [dif_neg (show ¬(0 : Fin S256x5120.rank) ∈ dot_S256x5120_S128x5120_S256x128_1_1_0_0_n_n.lhsBatch by decide), dif_pos (show (0 : Fin S256x5120.rank) ∈ dot_S256x5120_S128x5120_S256x128_1_1_0_0_n_n.lhsNonContracting by decide)]
  rfl
theorem lhs_sums_1 (i : S256x128.Idx) (q : dot_S256x5120_S128x5120_S256x128_1_1_0_0_n_n.contr.Idx) :
    (dot_S256x5120_S128x5120_S256x128_1_1_0_0_n_n.lhsIdx i q 1).val = (q ⟨0, by decide⟩).val :=
  dot_S256x5120_S128x5120_S256x128_1_1_0_0_n_n.lhsIdx_val_of_single rfl i q
theorem rhs_sums_0 (i : S256x128.Idx) (q : dot_S256x5120_S128x5120_S256x128_1_1_0_0_n_n.contr.Idx) :
    (dot_S256x5120_S128x5120_S256x128_1_1_0_0_n_n.rhsIdx i q 0).val = (i 1).val := by
  unfold DotDims.rhsIdx
  rw [dif_neg (show ¬(0 : Fin S128x5120.rank) ∈ dot_S256x5120_S128x5120_S256x128_1_1_0_0_n_n.rhsBatch by decide), dif_pos (show (0 : Fin S128x5120.rank) ∈ dot_S256x5120_S128x5120_S256x128_1_1_0_0_n_n.rhsNonContracting by decide)]
  rfl
theorem rhs_sums_1 (i : S256x128.Idx) (q : dot_S256x5120_S128x5120_S256x128_1_1_0_0_n_n.contr.Idx) :
    (dot_S256x5120_S128x5120_S256x128_1_1_0_0_n_n.rhsIdx i q 1).val = (q ⟨0, by decide⟩).val :=
  dot_S256x5120_S128x5120_S256x128_1_1_0_0_n_n.rhsIdx_val_of_single rfl i q

theorem lhs_counts_0 (i : S1x128.Idx) (q : dot_S1x5120_S128x5120_S1x128_1_1_0_0_n_n.contr.Idx) :
    (dot_S1x5120_S128x5120_S1x128_1_1_0_0_n_n.lhsIdx i q 0).val = (i 0).val := by
  unfold DotDims.lhsIdx
  rw [dif_neg (show ¬(0 : Fin S1x5120.rank) ∈ dot_S1x5120_S128x5120_S1x128_1_1_0_0_n_n.lhsBatch by decide), dif_pos (show (0 : Fin S1x5120.rank) ∈ dot_S1x5120_S128x5120_S1x128_1_1_0_0_n_n.lhsNonContracting by decide)]
  rfl
theorem lhs_counts_1 (i : S1x128.Idx) (q : dot_S1x5120_S128x5120_S1x128_1_1_0_0_n_n.contr.Idx) :
    (dot_S1x5120_S128x5120_S1x128_1_1_0_0_n_n.lhsIdx i q 1).val = (q ⟨0, by decide⟩).val :=
  dot_S1x5120_S128x5120_S1x128_1_1_0_0_n_n.lhsIdx_val_of_single rfl i q
theorem rhs_counts_0 (i : S1x128.Idx) (q : dot_S1x5120_S128x5120_S1x128_1_1_0_0_n_n.contr.Idx) :
    (dot_S1x5120_S128x5120_S1x128_1_1_0_0_n_n.rhsIdx i q 0).val = (i 1).val := by
  unfold DotDims.rhsIdx
  rw [dif_neg (show ¬(0 : Fin S128x5120.rank) ∈ dot_S1x5120_S128x5120_S1x128_1_1_0_0_n_n.rhsBatch by decide), dif_pos (show (0 : Fin S128x5120.rank) ∈ dot_S1x5120_S128x5120_S1x128_1_1_0_0_n_n.rhsNonContracting by decide)]
  rfl
theorem rhs_counts_1 (i : S1x128.Idx) (q : dot_S1x5120_S128x5120_S1x128_1_1_0_0_n_n.contr.Idx) :
    (dot_S1x5120_S128x5120_S1x128_1_1_0_0_n_n.rhsIdx i q 1).val = (q ⟨0, by decide⟩).val :=
  dot_S1x5120_S128x5120_S1x128_1_1_0_0_n_n.rhsIdx_val_of_single rfl i q

/-- The product into a zero block, read at an output entry: the sum over the 5120 columns of the two operands' rows. -/
theorem matmul_sums_apply (l : FVec Ideal S256x5120 .bf16) (r : FVec Ideal S128x5120 .bf16) (p : Fin 256) (g : Fin 128) :
    matmul dot_S256x5120_S128x5120_S256x128_1_1_0_0_n_n none l r (constant S256x128 .f32 0x00000000#32) (ix2 p g)
      = ∑ n : Fin 5120, l (ix2 p n) * r (ix2 g n) := by
  simp only [matmul]
  rw [Ideal.matmul_constant_zero_apply, ← Equiv.sum_comp (ValueIdx.contrEquiv1 dot_S256x5120_S128x5120_S256x128_1_1_0_0_n_n 5120 rfl rfl).symm]
  refine Finset.sum_congr rfl fun n _ => ?_
  have hk := ValueIdx.contrEquiv1_symm_val dot_S256x5120_S128x5120_S256x128_1_1_0_0_n_n 5120 rfl rfl n
  have el : dot_S256x5120_S128x5120_S256x128_1_1_0_0_n_n.lhsIdx (ix2 p g) ((ValueIdx.contrEquiv1 dot_S256x5120_S128x5120_S256x128_1_1_0_0_n_n 5120 rfl rfl).symm n) = ix2 p n := funext fun a => Fin.ext (by
    match a with
    | ⟨0, _⟩ => exact lhs_sums_0 _ _
    | ⟨1, _⟩ => exact (lhs_sums_1 _ _).trans hk)
  have er : dot_S256x5120_S128x5120_S256x128_1_1_0_0_n_n.rhsIdx (ix2 p g) ((ValueIdx.contrEquiv1 dot_S256x5120_S128x5120_S256x128_1_1_0_0_n_n 5120 rfl rfl).symm n) = ix2 g n := funext fun a => Fin.ext (by
    match a with
    | ⟨0, _⟩ => exact rhs_sums_0 _ _
    | ⟨1, _⟩ => exact (rhs_sums_1 _ _).trans hk)
  rw [el, er]

/-- The product into a zero block, read at an output entry: the sum over the 5120 columns of the two operands' rows. -/
theorem matmul_counts_apply (l : FVec Ideal S1x5120 .bf16) (r : FVec Ideal S128x5120 .bf16) (p : Fin 1) (g : Fin 128) :
    matmul dot_S1x5120_S128x5120_S1x128_1_1_0_0_n_n none l r (constant S1x128 .f32 0x00000000#32) (ix2 p g)
      = ∑ n : Fin 5120, l (ix2 p n) * r (ix2 g n) := by
  simp only [matmul]
  rw [Ideal.matmul_constant_zero_apply, ← Equiv.sum_comp (ValueIdx.contrEquiv1 dot_S1x5120_S128x5120_S1x128_1_1_0_0_n_n 5120 rfl rfl).symm]
  refine Finset.sum_congr rfl fun n _ => ?_
  have hk := ValueIdx.contrEquiv1_symm_val dot_S1x5120_S128x5120_S1x128_1_1_0_0_n_n 5120 rfl rfl n
  have el : dot_S1x5120_S128x5120_S1x128_1_1_0_0_n_n.lhsIdx (ix2 p g) ((ValueIdx.contrEquiv1 dot_S1x5120_S128x5120_S1x128_1_1_0_0_n_n 5120 rfl rfl).symm n) = ix2 p n := funext fun a => Fin.ext (by
    match a with
    | ⟨0, _⟩ => exact lhs_counts_0 _ _
    | ⟨1, _⟩ => exact (lhs_counts_1 _ _).trans hk)
  have er : dot_S1x5120_S128x5120_S1x128_1_1_0_0_n_n.rhsIdx (ix2 p g) ((ValueIdx.contrEquiv1 dot_S1x5120_S128x5120_S1x128_1_1_0_0_n_n 5120 rfl rfl).symm n) = ix2 g n := funext fun a => Fin.ext (by
    match a with
    | ⟨0, _⟩ => exact rhs_counts_0 _ _
    | ⟨1, _⟩ => exact (rhs_counts_1 _ _).trans hk)
  rw [el, er]

/-- A word compared for equality with itself or another, widened and converted: one or zero. -/
theorem onehot_scalar (a b : BitVec 32) :
    (((((IntOp.cmpi .eq a b).setWidth 32).toInt : ℝ) : EReal)) = if b = a then (1 : EReal) else 0 := by
  unfold IntOp.cmpi
  by_cases h : b = a
  · subst h; simp
  · have h' : (a == b) = false := beq_eq_false_iff_ne.mpr fun e => h e.symm
    simp only [h']
    simp [h]

/-- The one-hot block at (g, n): one when column n's word is g. -/
theorem onehot_apply (v17 : Vec Ideal S1x5120 .i32) (g : Fin 128) (n : Fin 5120) :
    k0_pay6 (F := Ideal) v17 (ix2 g n) = if v17 (ix2 0 n) = BitVec.ofNat 32 g.val then (1 : EReal) else 0 := by
  unfold k0_pay6
  rw [truncf_apply, sitofp_apply, extui_apply]
  show ((((IntOp.cmpi .eq (iota .tc S128x5120 32 [0] iota_S128x5120_d0_w32 (ix2 g n))
      (broadcastTo S128x5120 (shapeCast S1x5120 v17 shapeCasts_S1x5120_S1x5120) broadcasts_S1x5120_S128x5120 (ix2 g n))).setWidth 32).toInt : ℝ) : EReal) = _
  rw [iota_single_apply, broadcastTo_1b_ab_apply, shapeCast_self, onehot_scalar]

/-- A column [a, 1] broadcast along its unit axis reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The rectified hidden block at (k, n). -/
theorem hidden_apply (v3 : Vec Ideal S1x5120 .f32) (v5 v7 : Vec Ideal S256x1 .f32) (k : Fin 256) (n : Fin 5120) :
    maximumf (addf (mulf (broadcastTo S256x5120 (shapeCast S1x5120 v3 shapeCasts_S1x5120_S1x5120) broadcasts_S1x5120_S256x5120)
        (broadcastTo S256x5120 (shapeCast S256x1 v5 shapeCasts_S256x1_S256x1) broadcasts_S256x1_S256x5120))
        (broadcastTo S256x5120 (shapeCast S256x1 v7 shapeCasts_S256x1_S256x1) broadcasts_S256x1_S256x5120))
      (broadcast S256x5120 (Scalar.ofBits (F := Ideal) .f32 0x00000000#32)) (ix2 k n)
      = max (v3 (ix2 0 n) * v5 (ix2 k 0) + v7 (ix2 k 0)) 0 := by
  rw [maximumf_apply, addf_apply, mulf_apply, broadcast_apply, broadcastTo_1b_ab_apply, broadcastTo_a1_ab_apply,
    broadcastTo_a1_ab_apply, shapeCast_self, shapeCast_self, shapeCast_self]
  show max _ (Ideal.ofBits .f32 0x00000000#32) = _
  rw [Cert.Spec.ofBits_f32_zero]

/-- The step of `sums` at (k, g): the old entry plus the hidden entries of this block's columns whose word is g. -/
theorem pay7_apply (v3 : Vec Ideal S1x5120 .f32) (v5 v7 : Vec Ideal S256x1 .f32) (v17 : Vec Ideal S1x5120 .i32)
    (v26 : Vec Ideal S256x128 .f32) (k : Fin 256) (g : Fin 128) :
    k0_pay7 (F := Ideal) v3 v5 v7 v17 v26 (ix2 k g)
      = v26 (ix2 k g) + ∑ n : Fin 5120,
          if v17 (ix2 0 n) = BitVec.ofNat 32 g.val then max (v3 (ix2 0 n) * v5 (ix2 k 0) + v7 (ix2 k 0)) 0 else 0 := by
  unfold k0_pay7
  rw [shapeCast_self, addf_apply, matmul_sums_apply]
  refine congrArg (v26 (ix2 k g) + ·) (Finset.sum_congr rfl fun n _ => ?_)
  rw [truncf_apply, hidden_apply, onehot_apply, mul_ite, mul_one, mul_zero]

/-- The step of `counts` at g: the old entry plus one for each of this block's columns whose word is g. -/
theorem pay8_apply (v17 : Vec Ideal S1x5120 .i32) (v33 : Vec Ideal S1x128 .f32) (g : Fin 128) :
    k0_pay8 (F := Ideal) v17 v33 (ix2 0 g)
      = v33 (ix2 0 g) + ∑ n : Fin 5120, if v17 (ix2 0 n) = BitVec.ofNat 32 g.val then (1 : EReal) else 0 := by
  unfold k0_pay8
  rw [addf_apply, matmul_counts_apply]
  refine congrArg (v33 (ix2 0 g) + ·) (Finset.sum_congr rfl fun n _ => ?_)
  rw [broadcast_apply, onehot_apply]
  show Ideal.ofBits .bf16 0x3F80#16 * _ = _
  rw [Cert.Spec.ofBits_bf16_one, one_mul]

end Cert.KernelIdeal.Payload
end
-- ==== Proof.PoolSum.lean ====
/-
  Finite sums re-arranged: a sum over consecutive blocks of equal length is the sum over the whole range, and a
  range whose tail terms vanish may be cut at the tail's start. Both hold in any commutative monoid under addition,
  the extended reals among them.
-/
import Mathlib.Algebra.BigOperators.Intervals
import Mathlib.Algebra.BigOperators.Fin

namespace Cert.PoolSum

open Finset

variable {M : Type*} [AddCommMonoid M]

/-- `B` blocks of `K` consecutive terms are the first `K * B` terms. -/
theorem sum_blocks (f : ℕ → M) (K : ℕ) : ∀ B : ℕ, ∑ t ∈ range B, ∑ n ∈ range K, f (K * t + n) = ∑ i ∈ range (K * B), f i
  | 0 => by simp
  | B + 1 => by rw [sum_range_succ, sum_blocks f K B, Nat.mul_succ, sum_range_add]

/-- Terms that vanish from `a` on may be dropped. -/
theorem sum_cut (f : ℕ → M) (a b : ℕ) (h : a ≤ b) (hf : ∀ i, a ≤ i → f i = 0) : ∑ i ∈ range b, f i = ∑ i ∈ range a, f i := by
  obtain ⟨d, rfl⟩ := Nat.exists_eq_add_of_le h
  rw [sum_range_add, sum_eq_zero (fun x _ => hf (a + x) (Nat.le_add_right a x)), add_zero]

/-- The grid's two rows of ten blocks of 5120 terms, the terms from 100000 on zero: the first 100000 terms. -/
theorem sum_grid (f : ℕ → M) (hf : ∀ i, 100000 ≤ i → f i = 0) :
    ∑ c ∈ range 2, ∑ s ∈ range 10, ∑ n ∈ range 5120, f (5120 * (10 * c + s) + n) = ∑ i ∈ range 100000, f i := by
  rw [sum_blocks (fun t => ∑ n ∈ range 5120, f (5120 * t + n)) 10 2, sum_blocks f 5120 (10 * 2)]
  exact sum_cut f 100000 (5120 * (10 * 2)) (by decide) hf

end Cert.PoolSum
-- ==== Proof.KAccum.lean ====
/-
  The accumulation over the grid, in closed form, and the two output arrays after the run.

  Write `tS k g i` for column `i`'s term of `sums` at (k, g) — the rectified hidden entry of lane `i` when the lane's
  word is `g`, else zero — and `tC g i` for its term of `counts` (one or zero); `pS`, `pC` are their sums over the
  5120 lanes of one block. One run of the body adds the block's sum to the accumulator (`step_S`, `step_C`); the
  accumulator is zeroed at the first of each core's ten points; so after point `n` it holds the block sums of the
  points `n - n % 10 … n` (`scrS_closed`, `scrC_closed`, by induction on the point). The tenth point of a row copies
  the accumulators to block `n / 10` of the outputs, so the outputs end with, at (c', k, g), the sum of the block
  sums of points `10 c' … 10 c' + 9` (`final4`, `final5`).
-/
import proofs.«425223_j47485158425103_2_alg».proof.Proof.KBlocks
import proofs.«425223_j47485158425103_2_alg».proof.Proof.Pieces
import proofs.«425223_j47485158425103_2_alg».proof.Proof.Payload
import proofs.«425223_j47485158425103_2_alg».proof.Proof.PoolSum

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen Finset

variable (m : (ℓ : Loc nD τ sig) → Buf (Elt Ideal) ℓ) (ρ : Dev nD → PrngReg)

/-! ## The terms -/

/-- Lane `i` of the feature row and of the group row, for every natural `i` (past the rows: zero, and the word 128). -/
def aL (c : Dev nD) (i : ℕ) : EReal := if h : i < 102400 then aarr m c (ix2 0 ⟨i, h⟩) else 0
def bL (c : Dev nD) (i : ℕ) : BitVec 32 := if h : i < 102400 then barr m c (ix2 0 ⟨i, h⟩) else 128#32

/-- Lane `i`'s term of `sums` at (k, g), and of `counts` at g. -/
def tS (c : Dev nD) (k : Fin 256) (g : Fin 128) (i : ℕ) : EReal :=
  if bL m c i = BitVec.ofNat 32 g.val then max (aL m c i * warr m c (ix2 k 0) + larr m c (ix2 k 0)) 0 else 0
def tC (c : Dev nD) (g : Fin 128) (i : ℕ) : EReal := if bL m c i = BitVec.ofNat 32 g.val then 1 else 0

/-- Their sums over block `t`. -/
def pS (c : Dev nD) (k : Fin 256) (g : Fin 128) (t : ℕ) : EReal := ∑ n ∈ range 5120, tS m c k g (5120 * t + n)
def pC (c : Dev nD) (g : Fin 128) (t : ℕ) : EReal := ∑ n ∈ range 5120, tC m c g (5120 * t + n)

/-! ## One run of the body -/

theorem step_S (c : Dev nD) (t : Fin cfg0.N) (acc : Vec Ideal S256x128 .f32) (k : Fin 256) (g : Fin 128) :
    k0_pay7 (F := Ideal) (ablk m c t) (wblk m c t) (lblk m c t) (bblk m c t) acc (ix2 k g) = acc (ix2 k g) + pS m c k g t.val := by
  have hN : t.val < 20 := lt_of_lt_of_eq t.isLt N_0
  rw [Payload.pay7_apply, pS, Finset.sum_range]
  refine congrArg (acc (ix2 k g) + ·) (Finset.sum_congr rfl fun n _ => ?_)
  have hb : 5120 * t.val + n.val < 102400 := by have := n.isLt; omega
  unfold tS aL bL
  rw [dif_pos hb, dif_pos hb, bblk_apply m c t n hb, ablk_apply m c t n hb, wblk_eq, lblk_eq]

theorem step_C (c : Dev nD) (t : Fin cfg0.N) (acc : Vec Ideal S1x128 .f32) (g : Fin 128) :
    k0_pay8 (F := Ideal) (bblk m c t) acc (ix2 0 g) = acc (ix2 0 g) + pC m c g t.val := by
  have hN : t.val < 20 := lt_of_lt_of_eq t.isLt N_0
  rw [Payload.pay8_apply, pC, Finset.sum_range]
  refine congrArg (acc (ix2 0 g) + ·) (Finset.sum_congr rfl fun n _ => ?_)
  have hb : 5120 * t.val + n.val < 102400 := by have := n.isLt; omega
  unfold tC bL
  rw [dif_pos hb, bblk_apply m c t n hb]

/-- The zeroed accumulators. -/
theorem pay4_apply (y : S256x128.Idx) : k0_pay4 (F := Ideal) y = 0 := by
  unfold k0_pay4
  rw [shapeCast_self, broadcast_apply]
  exact Cert.Spec.ofBits_f32_zero
theorem pay5_apply (y : S1x128.Idx) : k0_pay5 (F := Ideal) y = 0 := by
  unfold k0_pay5
  rw [shapeCast_self, broadcast_apply]
  exact Cert.Spec.ofBits_f32_zero
theorem pay1_eq (v : FVec Ideal S1x128 .f32) : k0_pay1 (F := Ideal) v = v := by
  unfold k0_pay1
  rw [shapeCast_self]

/-! ## What the accumulators hold after a point, by the point's case -/

theorem scrS_reset (c : Dev nD) (t : Fin cfg0.N) (h0 : t.val % 10 = 0) :
    (outsAt0 m c t.val t.isLt).2.2.1 = k0_pay7 (F := Ideal) (ablk m c t) (wblk m c t) (lblk m c t) (bblk m c t) (k0_pay4 (F := Ideal)) := by
  have h1 : ¬t.val % 10 = 9 := by omega
  rw [outsAt0_A m c t h0 h1]
  dsimp only
  exact Pieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

theorem scrC_reset (c : Dev nD) (t : Fin cfg0.N) (h0 : t.val % 10 = 0) :
    (outsAt0 m c t.val t.isLt).2.2.2 = k0_pay1 (F := Ideal) (k0_pay8 (bblk m c t) (k0_pay5 (F := Ideal))) := by
  have h1 : ¬t.val % 10 = 9 := by omega
  rw [outsAt0_A m c t h0 h1]
  dsimp only
  exact Pieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)

theorem scrS_step (c : Dev nD) (t : Fin cfg0.N) (h0 : ¬t.val % 10 = 0) :
    (outsAt0 m c t.val t.isLt).2.2.1 = k0_pay7 (F := Ideal) (ablk m c t) (wblk m c t) (lblk m c t) (bblk m c t) (outsAt0 m c (t.val - 1) (Nat.lt_of_le_of_lt (Nat.sub_le _ _) t.isLt)).2.2.1 := by
  by_cases h1 : t.val % 10 = 9
  · rw [outsAt0_C m c t h0 h1]
    dsimp only
    exact Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Pieces.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

theorem scrC_step (c : Dev nD) (t : Fin cfg0.N) (h0 : ¬t.val % 10 = 0) :
    (outsAt0 m c t.val t.isLt).2.2.2 = k0_pay1 (F := Ideal) (k0_pay8 (bblk m c t) (outsAt0 m c (t.val - 1) (Nat.lt_of_le_of_lt (Nat.sub_le _ _) t.isLt)).2.2.2) := by
  by_cases h1 : t.val % 10 = 9
  · rw [outsAt0_C m c t h0 h1]
    dsimp only
    exact Pieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact Pieces.sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a row's last point the output blocks receive the accumulators' new contents. -/
theorem out4_last (c : Dev nD) (t : Fin cfg0.N) (h1 : t.val % 10 = 9) :
    (outsAt0 m c t.val t.isLt).1 = k0_pay2 (F := Ideal) (outsAt0 m c t.val t.isLt).2.2.1 := by
  have h0 : ¬t.val % 10 = 0 := by omega
  rw [outsAt0_C m c t h0 h1]
  dsimp only
  rw [Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact Pieces.out_C_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

theorem out5_last (c : Dev nD) (t : Fin cfg0.N) (h1 : t.val % 10 = 9) :
    (outsAt0 m c t.val t.isLt).2.1 = k0_pay3 (F := Ideal) (outsAt0 m c t.val t.isLt).2.2.2 := by
  have h0 : ¬t.val % 10 = 0 := by omega
  rw [outsAt0_C m c t h0 h1]
  dsimp only
  rw [Pieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact Pieces.out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2

/-! ## The accumulators in closed form -/

theorem scrS_closed (c : Dev nD) : ∀ (n : ℕ) (h : n < cfg0.N) (k : Fin 256) (g : Fin 128),
    (outsAt0 m c n h).2.2.1 (ix2 k g) = ∑ s ∈ range (n % 10 + 1), pS m c k g (n - n % 10 + s)
  | 0, h, k, g => by
    refine (congrFun (scrS_reset m c ⟨0, h⟩ rfl) (ix2 k g)).trans ?_
    rw [step_S m c ⟨0, h⟩, pay4_apply, zero_add]
    simp
  | n + 1, h, k, g => by
    by_cases h0 : (n + 1) % 10 = 0
    · refine (congrFun (scrS_reset m c ⟨n + 1, h⟩ h0) (ix2 k g)).trans ?_
      rw [step_S m c ⟨n + 1, h⟩, pay4_apply, zero_add, h0]
      simp
    · refine (congrFun (scrS_step m c ⟨n + 1, h⟩ h0) (ix2 k g)).trans ?_
      rw [step_S m c ⟨n + 1, h⟩]
      show (outsAt0 m c n _).2.2.1 (ix2 k g) + pS m c k g (n + 1) = _
      rw [scrS_closed c n _ k g]
      have e1 : (n + 1) % 10 = n % 10 + 1 := by omega
      have e2 : n + 1 - (n % 10 + 1) = n - n % 10 := by omega
      rw [e1, e2, Finset.sum_range_succ _ (n % 10 + 1)]
      congr 2
      omega

theorem scrC_closed (c : Dev nD) : ∀ (n : ℕ) (h : n < cfg0.N) (g : Fin 128),
    (outsAt0 m c n h).2.2.2 (ix2 0 g) = ∑ s ∈ range (n % 10 + 1), pC m c g (n - n % 10 + s)
  | 0, h, g => by
    refine (congrFun (scrC_reset m c ⟨0, h⟩ rfl) (ix2 0 g)).trans ?_
    rw [pay1_eq, step_C m c ⟨0, h⟩, pay5_apply, zero_add]
    simp
  | n + 1, h, g => by
    by_cases h0 : (n + 1) % 10 = 0
    · refine (congrFun (scrC_reset m c ⟨n + 1, h⟩ h0) (ix2 0 g)).trans ?_
      rw [pay1_eq, step_C m c ⟨n + 1, h⟩, pay5_apply, zero_add, h0]
      simp
    · refine (congrFun (scrC_step m c ⟨n + 1, h⟩ h0) (ix2 0 g)).trans ?_
      rw [pay1_eq, step_C m c ⟨n + 1, h⟩]
      show (outsAt0 m c n _).2.2.2 (ix2 0 g) + pC m c g (n + 1) = _
      rw [scrC_closed c n _ g]
      have e1 : (n + 1) % 10 = n % 10 + 1 := by omega
      have e2 : n + 1 - (n % 10 + 1) = n - n % 10 := by omega
      rw [e1, e2, Finset.sum_range_succ _ (n % 10 + 1)]
      congr 2
      omega

/-! ## The outputs after the run -/

/-- The printed index maps of the outputs, decided over the twenty points: the block is the core's number. -/
theorem idx_out : ∀ t : Fin cfg0.N, win0_4.index t 0 = t.val / 10 ∧ win0_4.index t 1 = 0 ∧ win0_4.index t 2 = 0
    ∧ win0_5.index t 0 = t.val / 10 ∧ win0_5.index t 1 = 0 ∧ win0_5.index t 2 = 0 :=
  (by decide +kernel : ∀ t : Fin grid0.N, _)

/-- What the two output arrays end holding: at core `c'`, the sum of the block sums of its ten points. -/
def G4 (c : Dev nD) : Vec Ideal S2x256x128 .f32 := fun i => ∑ s ∈ range 10, pS m c (i 1) (i 2) (10 * (i 0).val + s)
def G5 (c : Dev nD) : Vec Ideal S2x1x128 .f32 := fun i => ∑ s ∈ range 10, pC m c (i 2) (10 * (i 0).val + s)

theorem flushed4_eq (c : Dev nD) (t : Fin cfg0.N) (hf : (cfg0.win 4).flush t = true) :
    (dats m 0 c).flushed 4 t = ((cfg0.win 4).blk t).view.read (Elt Ideal) (G4 m c) := by
  have h9 : t.val % 10 = 9 := (flush0_4 t).mp hf
  have hN : t.val < 20 := lt_of_lt_of_eq t.isLt N_0
  show (cfg0.win 4).cut (grid0.coords t) ((dats m 0 c).after 4 t) = _
  rw [after0_4, out4_last m c t h9]
  funext y
  rw [View.read_apply]
  obtain ⟨u, k, g, rfl⟩ : ∃ (u : Fin 1) (k : Fin 256) (g : Fin 128), (y : S1x256x128.Idx) = ix3 u k g := ⟨y 0, y 1, y 2, eq_ix3 y⟩
  show k0_pay2 (F := Ideal) (outsAt0 m c t.val t.isLt).2.2.1 (ix3 u k g) = G4 m c (((cfg0.win 4).blk t).view.emb (ix3 u k g))
  have e : ((cfg0.win 4).blk t).view.emb (ix3 u k g) = ix3 (⟨t.val / 10, by omega⟩ : Fin 2) k g := by
    funext a; apply Fin.ext
    match a with
    | ⟨0, _⟩ => show win0_4.index t 0 * 1 + 1 * u.val = t.val / 10; rw [(idx_out t).1]; omega
    | ⟨1, _⟩ => show win0_4.index t 1 * 256 + 1 * k.val = k.val; rw [(idx_out t).2.1]; omega
    | ⟨2, _⟩ => show win0_4.index t 2 * 128 + 1 * g.val = g.val; rw [(idx_out t).2.2.1]; omega
  rw [e]
  unfold k0_pay2
  rw [shapeCast_ab_1ab_apply, scrS_closed m c t.val t.isLt k g, h9]
  unfold G4
  refine Finset.sum_congr rfl fun s _ => ?_
  congr 1
  show t.val - 9 + s = 10 * (t.val / 10) + s
  omega

theorem flushed5_eq (c : Dev nD) (t : Fin cfg0.N) (hf : (cfg0.win 5).flush t = true) :
    (dats m 0 c).flushed 5 t = ((cfg0.win 5).blk t).view.read (Elt Ideal) (G5 m c) := by
  have h9 : t.val % 10 = 9 := (flush0_5 t).mp hf
  have hN : t.val < 20 := lt_of_lt_of_eq t.isLt N_0
  show (cfg0.win 5).cut (grid0.coords t) ((dats m 0 c).after 5 t) = _
  rw [after0_5, out5_last m c t h9]
  funext y
  rw [View.read_apply]
  obtain ⟨u, k, g, rfl⟩ : ∃ (u : Fin 1) (k : Fin 1) (g : Fin 128), (y : S1x1x128.Idx) = ix3 u k g := ⟨y 0, y 1, y 2, eq_ix3 y⟩
  show k0_pay3 (F := Ideal) (outsAt0 m c t.val t.isLt).2.2.2 (ix3 u k g) = G5 m c (((cfg0.win 5).blk t).view.emb (ix3 u k g))
  have e : ((cfg0.win 5).blk t).view.emb (ix3 u k g) = ix3 (⟨t.val / 10, by omega⟩ : Fin 2) k g := by
    funext a; apply Fin.ext
    match a with
    | ⟨0, _⟩ => show win0_5.index t 0 * 1 + 1 * u.val = t.val / 10; rw [(idx_out t).2.2.2.1]; omega
    | ⟨1, _⟩ => show win0_5.index t 1 * 1 + 1 * k.val = k.val; rw [(idx_out t).2.2.2.2.1]; omega
    | ⟨2, _⟩ => show win0_5.index t 2 * 128 + 1 * g.val = g.val; rw [(idx_out t).2.2.2.2.2]; omega
  rw [e]
  unfold k0_pay3
  have hk : k = 0 := Fin.ext (by omega)
  subst hk
  rw [shapeCast_ab_1ab_apply, scrC_closed m c t.val t.isLt g, h9]
  unfold G5
  refine Finset.sum_congr rfl fun s _ => ?_
  congr 1
  show t.val - 9 + s = 10 * (t.val / 10) + s
  omega

/-- Every entry of an output is in the block its core's last point writes back. -/
theorem cover4 (i : S2x256x128.Idx) : ∃ t : Fin cfg0.N, (cfg0.win 4).flush t = true ∧ i ∈ ((cfg0.win 4).blk t).view.set := by
  have hi0 : (i 0).val < 2 := (i 0).isLt
  have hi1 : (i 1).val < 256 := (i 1).isLt
  have hi2 : (i 2).val < 128 := (i 2).isLt
  have hN : cfg0.N = 20 := N_0
  have hlt : 10 * (i 0).val + 9 < cfg0.N := by omega
  refine ⟨⟨10 * (i 0).val + 9, hlt⟩, (flush0_4 _).mpr (by show (10 * (i 0).val + 9) % 10 = 9; omega), ?_⟩
  show i ∈ ((View.whole main_v20_0).slice (win0_4.rect ⟨10 * (i 0).val + 9, hlt⟩)).set
  rw [View.set_slice_whole, Rect.mem_set_unit]
  intro a
  have ht : (10 * (i 0).val + 9) / 10 = (i 0).val := by omega
  have hx := idx_out ⟨10 * (i 0).val + 9, hlt⟩
  match a with
  | ⟨0, _⟩ => show win0_4.index ⟨10 * (i 0).val + 9, hlt⟩ 0 * 1 ≤ (i 0).val ∧ (i 0).val < win0_4.index ⟨10 * (i 0).val + 9, hlt⟩ 0 * 1 + 1; rw [hx.1]; show (10 * (i 0).val + 9) / 10 * 1 ≤ _ ∧ _ < (10 * (i 0).val + 9) / 10 * 1 + 1; omega
  | ⟨1, _⟩ => show win0_4.index ⟨10 * (i 0).val + 9, hlt⟩ 1 * 256 ≤ (i 1).val ∧ (i 1).val < win0_4.index ⟨10 * (i 0).val + 9, hlt⟩ 1 * 256 + 256; rw [hx.2.1]; omega
  | ⟨2, _⟩ => show win0_4.index ⟨10 * (i 0).val + 9, hlt⟩ 2 * 128 ≤ (i 2).val ∧ (i 2).val < win0_4.index ⟨10 * (i 0).val + 9, hlt⟩ 2 * 128 + 128; rw [hx.2.2.1]; omega

theorem cover5 (i : S2x1x128.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 128 := (i 2).isLt
  have hN : cfg0.N = 20 := N_0
  have hlt : 10 * (i 0).val + 9 < cfg0.N := by omega
  refine ⟨⟨10 * (i 0).val + 9, hlt⟩, (flush0_5 _).mpr (by show (10 * (i 0).val + 9) % 10 = 9; omega), ?_⟩
  show i ∈ ((View.whole main_v20_1).slice (win0_5.rect ⟨10 * (i 0).val + 9, hlt⟩)).set
  rw [View.set_slice_whole, Rect.mem_set_unit]
  intro a
  have ht : (10 * (i 0).val + 9) / 10 = (i 0).val := by omega
  have hx := idx_out ⟨10 * (i 0).val + 9, hlt⟩
  match a with
  | ⟨0, _⟩ => show win0_5.index ⟨10 * (i 0).val + 9, hlt⟩ 0 * 1 ≤ (i 0).val ∧ (i 0).val < win0_5.index ⟨10 * (i 0).val + 9, hlt⟩ 0 * 1 + 1; rw [hx.2.2.2.1]; show (10 * (i 0).val + 9) / 10 * 1 ≤ _ ∧ _ < (10 * (i 0).val + 9) / 10 * 1 + 1; omega
  | ⟨1, _⟩ => show win0_5.index ⟨10 * (i 0).val + 9, hlt⟩ 1 * 1 ≤ (i 1).val ∧ (i 1).val < win0_5.index ⟨10 * (i 0).val + 9, hlt⟩ 1 * 1 + 1; rw [hx.2.2.2.2.1]; omega
  | ⟨2, _⟩ => show win0_5.index ⟨10 * (i 0).val + 9, hlt⟩ 2 * 128 ≤ (i 2).val ∧ (i 2).val < win0_5.index ⟨10 * (i 0).val + 9, hlt⟩ 2 * 128 + 128; rw [hx.2.2.2.2.2]; omega

/-- So the output arrays end holding the sums of their cores' block sums. -/
theorem final4 (c : Dev nD) : (dats m 0 c).arrAt 4 cfg0.N = G4 m c :=
  (dats m 0 c).arrAt_eq_of_cover 4 (G4 m c) (flushed4_eq m c) cover4

theorem final5 (c : Dev nD) : (dats m 0 c).arrAt 5 cfg0.N = G5 m c :=
  (dats m 0 c).arrAt_eq_of_cover 5 (G5 m c) (flushed5_eq m c) cover5

end Cert.KernelIdeal.KValue
end
-- ==== Proof.KTail.lean ====
/-
  The host operations after the region, and the whole run read as one function of the arguments.

  After the region the program adds the two cores' partial `sums` and `counts`, divides each `sums` entry by
  `max counts 1`, transposes, multiplies by the output weights, adds the output bias and rectifies (`tailK`). With
  the region's outputs at the sums of block sums, the two cores' rows of ten blocks of 5120 lanes are the 102400
  lanes, the padding lanes carry the word 128 and add nothing, so `sums` at (k, g) is the sum of the hidden entries
  of the nodes of group g and `counts` at g the number of those nodes: the result is `Spec.out` (`run`).
-/
import proofs.«425223_j47485158425103_2_alg».proof.Proof.KAccum
import Idealize.ShloMosaic.PureOps.Ideal.Laws

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen Finset

/-- The operations after the region, as one function of the region's two outputs and the output layer's arguments. -/
def tailK {F : FTy → Type} [FloatOps F] (S : FVec F S2x256x128 .f32) (C : FVec F S2x1x128 .f32) (wo : FVec F S256x1 .f32) (bo : FVec F S1 .f32) :
    FVec F S128x1 .f32 :=
  maximumf
    (addf
      (Host.dotGeneral dot_S128x256_S256x1_S128x1_1_0_0_1_n_n none
        (transpose S128x256 [1, 0]
          (Host.divf (Host.reduceAdd S (constant S_ .f32 0x00000000#32) reducesTo_S2x256x128_S256x128_d0 h_S_)
            (broadcastInDim S256x128 ![0, 1] bcast_S1x128_S256x128_0_1
              (maximumf (Host.reduceAdd C (constant S_ .f32 0x00000000#32) reducesTo_S2x1x128_S1x128_d0 h_S_)
                (broadcastInDim S1x128 ![] bcast_S_S1x128 (constant S_ .f32 0x3F800000#32)))))
          transposes_S256x128_S128x256_1_0)
        wo)
      (broadcastInDim S128x1 ![0, 1] bcast_S1x1_S128x1_0_1 (broadcastInDim S1x1 ![1] bcast_S1_S1x1_1 bo)))
    (broadcastInDim S128x1 ![] bcast_S_S128x1 (constant S_ .f32 0x00000000#32))

section AnyValues

variable {F : FTy → Type} [FloatOps F] (m : (ℓ : Loc nD τ sig) → Buf (Elt F) ℓ) (ρ : Dev nD → PrngReg)

set_option maxHeartbeats 2000000 in
/-- The result buffer after the tail is `tailK` of the region's outputs after the run and the two arguments. -/
theorem tail_eq (c : Dev nD) :
    Pipeline.afterTail₀ cfgs (dats m) 0 (V0 m) [hostOps1, hostOps1_1] c main_v32
      = tailK ((dats m 0 c).arrAt 4 cfg0.N) ((dats m 0 c).arrAt 5 cfg0.N) (argWo m c) (argBo m c) := by
  have e4 : Pipeline.withArrays (cfgs 0).spec c (V0 m c) (fun w => (dats m 0 c).arrAt w (cfgs 0).N) (Proc.devRef .tc main_v20_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v20_1)
      = (dats m 0 c).arrAt 5 cfg0.N := Pipeline.withArrays_arr spec0 launch0.win.arr_inj c _ _ 5
  have e6 : Pipeline.withArrays (cfgs 0).spec c (V0 m c) (fun w => (dats m 0 c).arrAt w (cfgs 0).N) (Proc.devRef .tc main_arg5)
      = argWo m c :=
    (Pipeline.withArrays_of_ne spec0 c _ _ main_arg5 (by decide)).trans (V_main_arg5 m c)
  have e7 : Pipeline.withArrays (cfgs 0).spec c (V0 m c) (fun w => (dats m 0 c).arrAt w (cfgs 0).N) (Proc.devRef .tc main_arg6)
      = argBo m c :=
    (Pipeline.withArrays_of_ne spec0 c _ _ main_arg6 (by decide)).trans (V_main_arg6 m c)
  unfold Pipeline.afterTail₀ tailK
  show StableHlo.after (List.flatten [hostOps1, hostOps1_1]) _ (Proc.devRef .tc main_v32) = _
  simp only [hostOps1, hostOps1_1, List.flatten_cons, List.flatten_nil, List.append_nil, List.cons_append, List.nil_append]
  after_results
  rw [e4, e5, e6, e7]
  try rfl

end AnyValues

/-! ## The tail read at an index, at the extended reals -/

section AtIdeal

/-- The two cores' partial `sums` added, at (k, g); and their partial `counts`, at g. -/
theorem reduceS_apply (S : FVec Ideal S2x256x128 .f32) (k : Fin 256) (g : Fin 128) :
    Host.reduceAdd S (constant (F := Ideal) S_ .f32 0x00000000#32) reducesTo_S2x256x128_S256x128_d0 h_S_ (ix2 k g)
      = ∑ c' : Fin 2, S (ix3 c' k g) := by
  have hR : S2x256x128.Reduces [0] S256x128 := by decide
  unfold Host.reduceAdd
  rw [Ideal.hostReduceAdd_def, Ideal.hostReduceAdd_single reducesTo_S2x256x128_S256x128_d0 hR]
  show Ideal.ofBits .f32 0x00000000#32 + _ = _
  rw [Cert.Spec.ofBits_f32_zero, zero_add]
  refine Finset.sum_congr rfl fun c' _ => congrArg S (funext fun a => Fin.ext ?_)
  match a with
  | ⟨0, _⟩ => rfl
  | ⟨1, _⟩ => rfl
  | ⟨2, _⟩ => rfl

theorem reduceC_apply (C : FVec Ideal S2x1x128 .f32) (u : Fin 1) (g : Fin 128) :
    Host.reduceAdd C (constant (F := Ideal) S_ .f32 0x00000000#32) reducesTo_S2x1x128_S1x128_d0 h_S_ (ix2 u g)
      = ∑ c' : Fin 2, C (ix3 c' u g) := by
  have hR : S2x1x128.Reduces [0] S1x128 := by decide
  unfold Host.reduceAdd
  rw [Ideal.hostReduceAdd_def, Ideal.hostReduceAdd_single reducesTo_S2x1x128_S1x128_d0 hR]
  show Ideal.ofBits .f32 0x00000000#32 + _ = _
  rw [Cert.Spec.ofBits_f32_zero, zero_add]
  refine Finset.sum_congr rfl fun c' _ => congrArg C (funext fun a => Fin.ext ?_)
  match a with
  | ⟨0, _⟩ => rfl
  | ⟨1, _⟩ => rfl
  | ⟨2, _⟩ => rfl

/-- The broadcasts of the tail read at an index. -/
theorem bcastRow_apply (X : FVec Ideal S1x128 .f32) (k : Fin 256) (g : Fin 128) :
    broadcastInDim S256x128 ![0, 1] bcast_S1x128_S256x128_0_1 X (ix2 k g) = X (ix2 0 g) :=
  broadcastInDim_apply _ bcast_S1x128_S256x128_0_1 X (ix2 k g) (ix2 (0 : Fin 1) g) (fun a => match a with
    | ⟨0, _⟩ => by show (0 : ℕ) = if (1 : ℕ) = 1 then 0 else k.val; rw [if_pos rfl]
    | ⟨1, _⟩ => by show g.val = if (128 : ℕ) = 1 then 0 else g.val; rw [if_neg (by decide)])

theorem bcastBias_apply (bo : FVec Ideal S1 .f32) (g : Fin 128) :
    broadcastInDim S128x1 ![0, 1] bcast_S1x1_S128x1_0_1 (broadcastInDim S1x1 ![1] bcast_S1_S1x1_1 bo) (ix2 g (0 : Fin 1)) = bo (ix1 0) := by
  rw [broadcastInDim_apply _ bcast_S1x1_S128x1_0_1 _ (ix2 g (0 : Fin 1)) (ix2 (0 : Fin 1) (0 : Fin 1)) (fun a => match a with
    | ⟨0, _⟩ => by show (0 : ℕ) = if (1 : ℕ) = 1 then 0 else g.val; rw [if_pos rfl]
    | ⟨1, _⟩ => by show (0 : ℕ) = if (1 : ℕ) = 1 then 0 else 0; rw [if_pos rfl])]
  exact broadcastInDim_apply _ bcast_S1_S1x1_1 bo (ix2 (0 : Fin 1) (0 : Fin 1)) (ix1 (0 : Fin 1)) (fun a => match a with
    | ⟨0, _⟩ => by show (0 : ℕ) = if (1 : ℕ) = 1 then 0 else 0; rw [if_pos rfl])

theorem bcastScalar_apply {α : Type} {t : Shape} (h : S_.BroadcastsInDim t (![] : Fin 0 → Fin t.rank)) (x : S_.Idx → α) (i : t.Idx) :
    broadcastInDim t ![] h x i = x ix0 :=
  broadcastInDim_apply _ h x i ix0 (fun a => a.elim0)

theorem lhs_out_0 (i : S128x1.Idx) (q : dot_S128x256_S256x1_S128x1_1_0_0_1_n_n.contr.Idx) :
    (dot_S128x256_S256x1_S128x1_1_0_0_1_n_n.lhsIdx i q 0).val = (i 0).val := by
  unfold DotDims.lhsIdx
  rw [dif_neg (show ¬(0 : Fin S128x256.rank) ∈ dot_S128x256_S256x1_S128x1_1_0_0_1_n_n.lhsBatch by decide), dif_pos (show (0 : Fin S128x256.rank) ∈ dot_S128x256_S256x1_S128x1_1_0_0_1_n_n.lhsNonContracting by decide)]
  rfl
theorem lhs_out_1 (i : S128x1.Idx) (q : dot_S128x256_S256x1_S128x1_1_0_0_1_n_n.contr.Idx) :
    (dot_S128x256_S256x1_S128x1_1_0_0_1_n_n.lhsIdx i q 1).val = (q ⟨0, by decide⟩).val :=
  dot_S128x256_S256x1_S128x1_1_0_0_1_n_n.lhsIdx_val_of_single rfl i q
theorem rhs_out_0 (i : S128x1.Idx) (q : dot_S128x256_S256x1_S128x1_1_0_0_1_n_n.contr.Idx) :
    (dot_S128x256_S256x1_S128x1_1_0_0_1_n_n.rhsIdx i q 0).val = (q ⟨0, by decide⟩).val :=
  dot_S128x256_S256x1_S128x1_1_0_0_1_n_n.rhsIdx_val_of_single rfl i q
theorem rhs_out_1 (i : S128x1.Idx) (q : dot_S128x256_S256x1_S128x1_1_0_0_1_n_n.contr.Idx) :
    (dot_S128x256_S256x1_S128x1_1_0_0_1_n_n.rhsIdx i q 1).val = (i 1).val := by
  unfold DotDims.rhsIdx
  rw [dif_neg (show ¬(1 : Fin S256x1.rank) ∈ dot_S128x256_S256x1_S128x1_1_0_0_1_n_n.rhsBatch by decide), dif_pos (show (1 : Fin S256x1.rank) ∈ dot_S128x256_S256x1_S128x1_1_0_0_1_n_n.rhsNonContracting by decide)]
  rfl

/-- The output layer's product at (g, 0): the sum over the 256 channels. -/
theorem dotOut_apply (l : FVec Ideal S128x256 .f32) (r : FVec Ideal S256x1 .f32) (g : Fin 128) :
    Host.dotGeneral dot_S128x256_S256x1_S128x1_1_0_0_1_n_n none l r (ix2 g (0 : Fin 1)) = ∑ k : Fin 256, l (ix2 g k) * r (ix2 k (0 : Fin 1)) := by
  simp only [Host.dotGeneral]
  rw [Ideal.dotGeneral_apply, ← Equiv.sum_comp (ValueIdx.contrEquiv1 dot_S128x256_S256x1_S128x1_1_0_0_1_n_n 256 rfl rfl).symm]
  refine Finset.sum_congr rfl fun k _ => ?_
  have hk := ValueIdx.contrEquiv1_symm_val dot_S128x256_S256x1_S128x1_1_0_0_1_n_n 256 rfl rfl k
  have el : dot_S128x256_S256x1_S128x1_1_0_0_1_n_n.lhsIdx (ix2 g (0 : Fin 1)) ((ValueIdx.contrEquiv1 dot_S128x256_S256x1_S128x1_1_0_0_1_n_n 256 rfl rfl).symm k) = ix2 g k := funext fun a => Fin.ext (by
    match a with
    | ⟨0, _⟩ => exact lhs_out_0 _ _
    | ⟨1, _⟩ => exact (lhs_out_1 _ _).trans hk)
  have er : dot_S128x256_S256x1_S128x1_1_0_0_1_n_n.rhsIdx (ix2 g (0 : Fin 1)) ((ValueIdx.contrEquiv1 dot_S128x256_S256x1_S128x1_1_0_0_1_n_n 256 rfl rfl).symm k) = ix2 k (0 : Fin 1) := funext fun a => Fin.ext (by
    match a with
    | ⟨0, _⟩ => exact (rhs_out_0 _ _).trans hk
    | ⟨1, _⟩ => exact rhs_out_1 _ _)
  rw [el, er]

/-- The host's quotient is elementwise. -/
theorem hostDivf_apply {s : Shape} (A B : FVec Ideal s .f32) (i : s.Idx) : Host.divf A B i = Ideal.div (A i) (B i) := rfl

/-- The specification's result at group `g`, written out. -/
theorem out_apply (agg : (⟨2, ![100000, 1]⟩ : Shape).Idx → EReal) (wl : (⟨2, ![1, 256]⟩ : Shape).Idx → EReal)
    (bl : (⟨1, ![256]⟩ : Shape).Idx → EReal) (batch : (⟨1, ![100000]⟩ : Shape).Idx → BitVec 32)
    (wout : (⟨2, ![256, 1]⟩ : Shape).Idx → EReal) (bout : (⟨1, ![1]⟩ : Shape).Idx → EReal) (g : Fin 128) :
    Cert.Spec.out agg wl bl batch wout bout (ix2 g (0 : Fin 1))
      = max ((∑ k : Fin 256, Ideal.div (Cert.Spec.seg batch (fun i => Cert.Spec.hid agg wl bl i k) g)
          (max (Cert.Spec.seg batch (fun _ => 1) g) 1) * wout (ix2 k (0 : Fin 1))) + bout (ix1 0)) 0 := rfl

/-- The tail at group `g`. -/
theorem tailK_apply (S : FVec Ideal S2x256x128 .f32) (C : FVec Ideal S2x1x128 .f32) (wo : FVec Ideal S256x1 .f32) (bo : FVec Ideal S1 .f32) (g : Fin 128) :
    tailK (F := Ideal) S C wo bo (ix2 g (0 : Fin 1))
      = max ((∑ k : Fin 256, Ideal.div (∑ c' : Fin 2, S (ix3 c' k g)) (max (∑ c' : Fin 2, C (ix3 c' (0 : Fin 1) g)) 1) * wo (ix2 k (0 : Fin 1))) + bo (ix1 0)) 0 := by
  unfold tailK
  rw [maximumf_apply, addf_apply, dotOut_apply, bcastBias_apply, bcastScalar_apply]
  show max _ (Ideal.ofBits .f32 0x00000000#32) = _
  rw [Cert.Spec.ofBits_f32_zero]
  congr 2
  refine Finset.sum_congr rfl fun k _ => ?_
  rw [transpose_ix2_apply, hostDivf_apply, reduceS_apply, bcastRow_apply, maximumf_apply, reduceC_apply, bcastScalar_apply]
  show Ideal.div _ (max _ (Ideal.ofBits .f32 0x3F800000#32)) * _ = _
  rw [Cert.Spec.ofBits_f32_one]

end AtIdeal

/-! ## The sums over the grid are the sums over the groups -/

section Run

variable (m : (ℓ : Loc nD τ sig) → Buf (Elt Ideal) ℓ) (ρ : Dev nD → PrngReg)

/-- A lane of the padding carries the word 128, which is no group's word. -/
theorem bL_pad (c : Dev nD) (g : Fin 128) (i : ℕ) (hi : 100000 ≤ i) : ¬bL m c i = BitVec.ofNat 32 g.val := by
  have hne : ∀ g : Fin 128, ¬(128#32 : BitVec 32) = BitVec.ofNat 32 g.val := by decide
  unfold bL
  by_cases h : i < 102400
  · rw [dif_pos h, barr_apply, dif_neg (by show ¬i < 100000; omega)]
    exact hne g
  · rw [dif_neg h]
    exact hne g

/-- Below 100000 a lane's terms are the node's. -/
theorem tS_node (c : Dev nD) (k : Fin 256) (g : Fin 128) (i : Fin 100000) :
    tS m c k g i.val = if argB m c (ix1 i) = BitVec.ofNat 32 g.val then
      Cert.Spec.hid (aggK (argX m c) (argE m c)) (argWl m c) (argBl m c) i k else 0 := by
  have h1 : i.val < 102400 := by have := i.isLt; omega
  unfold tS aL bL Cert.Spec.hid
  rw [dif_pos h1, dif_pos h1, barr_apply, aarr_apply, dif_pos i.isLt, dif_pos i.isLt, warr_apply, larr_apply]

theorem tC_node (c : Dev nD) (g : Fin 128) (i : Fin 100000) :
    tC m c g i.val = if argB m c (ix1 i) = BitVec.ofNat 32 g.val then (1 : EReal) else 0 := by
  have h1 : i.val < 102400 := by have := i.isLt; omega
  unfold tC bL
  rw [dif_pos h1, barr_apply, dif_pos i.isLt]

/-- `sums` at (k, g) is the sum of the hidden entries of the nodes of group g. -/
theorem sums_eq (c : Dev nD) (k : Fin 256) (g : Fin 128) :
    ∑ c' : Fin 2, G4 m c (ix3 c' k g)
      = Cert.Spec.seg (argB m c) (fun i => Cert.Spec.hid (aggK (argX m c) (argE m c)) (argWl m c) (argBl m c) i k) g := by
  unfold G4 Cert.Spec.seg
  rw [← Finset.sum_range (fun c' => ∑ s ∈ range 10, pS m c k g (10 * c' + s))]
  unfold pS
  rw [PoolSum.sum_grid (tS m c k g) (fun i hi => if_neg (bL_pad m c g i hi)), Finset.sum_range]
  exact Finset.sum_congr rfl fun i _ => tS_node m c k g i

/-- `counts` at g is the number of nodes of group g. -/
theorem counts_eq (c : Dev nD) (g : Fin 128) :
    ∑ c' : Fin 2, G5 m c (ix3 c' (0 : Fin 1) g) = Cert.Spec.seg (argB m c) (fun _ => 1) g := by
  unfold G5 Cert.Spec.seg
  rw [← Finset.sum_range (fun c' => ∑ s ∈ range 10, pC m c g (10 * c' + s))]
  unfold pC
  rw [PoolSum.sum_grid (tC m c g) (fun i hi => if_neg (bL_pad m c g i hi)), Finset.sum_range]
  exact Finset.sum_congr rfl fun i _ => tC_node m c g i

/-- The result buffer after the run is the specification's function of the arguments. -/
theorem result_eq (c : Dev nD) :
    Pipeline.afterTail₀ cfgs (dats m) 0 (V0 m) [hostOps1, hostOps1_1] c main_v32
      = Cert.Spec.out (aggK (argX m c) (argE m c)) (argWl m c) (argBl m c) (argB m c) (argWo m c) (argBo m c) := by
  rw [tail_eq, final4, final5]
  funext j
  obtain ⟨g, u, rfl⟩ : ∃ (g : Fin 128) (u : Fin 1), j = ix2 g u := ⟨j 0, j 1, eq_ix2 j⟩
  have hu : u = 0 := Fin.ext (by omega)
  subst hu
  rw [tailK_apply, out_apply]
  have hS : ∀ k : Fin 256, (∑ c' : Fin 2, G4 m c (ix3 c' k g) : EReal)
      = Cert.Spec.seg (argB m c) (fun i => Cert.Spec.hid (aggK (argX m c) (argE m c)) (argWl m c) (argBl m c) i k) g :=
    fun k => sums_eq m c k g
  have hC : (∑ c' : Fin 2, G5 m c (ix3 c' (0 : Fin 1) g) : EReal) = Cert.Spec.seg (argB m c) (fun _ => 1) g := counts_eq m c g
  simp only [hS, hC]

/-- The run, read: the result at the specification's function of the arguments, the arguments unchanged. -/
theorem run : θ_run defs (onTc (τ := τ) (main (F := Ideal))) ⟨m, fun _ => 0, ρ⟩ fun r => ∀ c : Dev nD,
      r.2.mem ((c.tc : Thread nD τ).loc main_v32)
        = Cert.Spec.out (aggK (argX m c) (argE m c)) (argWl m c) (argBl m c) (argB m c) (argWo m c) (argBo m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v32 (Pipeline.mem_restRefs_of main_v32 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Run

end Cert.KernelIdeal.KValue
end
-- ==== Proof.RefValue.lean ====
/-
  The reference program computes `Spec.out` of its aggregated feature.

  The reference pools the hidden rows with two accumulating scatters whose indices are the `batch` words: one adds
  node `n`'s hidden row into row `batch n` of a 128 × 256 array of zeros, the other adds a one into entry `batch n` of
  128 zeros. A scatter's start index is read as a signed integer and an update that lands outside the array is
  dropped, so group `g` receives exactly the nodes whose word, read signed, is the number `g`: the nodes whose word
  is the word `g` (`Spec.word_eq_iff`). The first part computes where each update lands; the second reads the two
  scatters at an index as sums over the nodes; the third chains the elementwise operations around them.
-/
import proofs.«425223_j47485158425103_2_alg».proof.Proof.Gen.ReferenceIdeal.Read
import proofs.«425223_j47485158425103_2_alg».proof.Proof.Spec
import Idealize.ShloMosaic.PureOps.Dims
import Idealize.ShloMosaic.PureOps.Ideal
import Idealize.ShloMosaic.PureOps.Contract
import Idealize.ShloMosaic.Lib.ValueIdx
import Idealize.ShloMosaic.Lib.ValueIdxRank1
import Mathlib.Algebra.BigOperators.Fin
import Mathlib.Algebra.BigOperators.Group.Finset.Defs
import Mathlib.Algebra.BigOperators.Group.Finset.Basic
import Mathlib.Algebra.BigOperators.Group.Finset.Piecewise

noncomputable section
open Idealize.ShloMosaic Idealize.ShloMosaic.TcCoe Idealize.SL.Sem Idealize.ShloMosaic.ValueIdx
namespace Cert.RefValue
open Cert.ReferenceIdeal Cert.ReferenceIdeal.Read

/-! ## Where an update lands

For the rows scatter (updates 100000 × 256 into 128 × 256, the index column 100000 × 1): update `(n, k)` starts at row
`idx (n, 0)` read signed, column 0, with window coordinate `(0, k)`; so it lands at `(g, k')` exactly when the word reads
`g` and `k = k'`. For the count scatter (updates 100000 into 128): update `n` lands at `g` exactly when the word reads `g`. -/

/-- The rows scatter reads update `j`'s start index at row `j 0` of the index column. -/
theorem siIdxR (j : S100000x256.Idx) (c : Fin scatter_S128x256_S100000x1_S100000x256_1_0_0_1.scatterDimsToOperandDims.length) :
    scatter_S128x256_S100000x1_S100000x256_1_0_0_1.siIdx j c = ix2 (j 0) 0 := by
  funext b
  match b with
  | ⟨0, _⟩ => rfl
  | ⟨1, _⟩ =>
    apply Fin.ext
    have hc : c.val < 1 := c.isLt
    show c.val = 0
    omega

/-- On the row axis the window starts at the index word, read signed. -/
theorem startR_0 (j : S100000x256.Idx) (idx : IVec S100000x1 32) :
    scatter_S128x256_S100000x1_S100000x256_1_0_0_1.start j idx 0 = (idx (ix2 (j 0) 0)).toInt := by
  unfold ScatterDims.start
  rw [dif_pos (show (0 : Fin S128x256.rank) ∈ scatter_S128x256_S100000x1_S100000x256_1_0_0_1.scatterDimsToOperandDims by decide), siIdxR]
  rfl

/-- On the channel axis, which the index map does not name, the window starts at zero. -/
theorem startR_1 (j : S100000x256.Idx) (idx : IVec S100000x1 32) :
    scatter_S128x256_S100000x1_S100000x256_1_0_0_1.start j idx 1 = 0 := by
  unfold ScatterDims.start
  rw [dif_neg (show ¬ (1 : Fin S128x256.rank) ∈ scatter_S128x256_S100000x1_S100000x256_1_0_0_1.scatterDimsToOperandDims by decide)]

/-- The row axis is inserted: its window coordinate is zero. -/
theorem windowR_0 (j : S100000x256.Idx) : scatter_S128x256_S100000x1_S100000x256_1_0_0_1.window j 0 = 0 := by
  unfold ScatterDims.window
  rw [dif_neg (show ¬ (0 : Fin S128x256.rank) ∈ scatter_S128x256_S100000x1_S100000x256_1_0_0_1.sKept by decide)]

/-- The channel axis carries the update's channel. -/
theorem windowR_1 (j : S100000x256.Idx) : scatter_S128x256_S100000x1_S100000x256_1_0_0_1.window j 1 = (j 1).val := by
  unfold ScatterDims.window
  rw [dif_pos (show (1 : Fin S128x256.rank) ∈ scatter_S128x256_S100000x1_S100000x256_1_0_0_1.sKept by decide)]
  rfl

/-- Update `(n, k)` of the rows scatter lands at `(g, k')` exactly when node `n`'s word reads `g` and `k = k'`. -/
theorem resultIdxR (n : Fin 100000) (k : Fin 256) (g : Fin 128) (k' : Fin 256) (idx : IVec S100000x1 32) :
    scatter_S128x256_S100000x1_S100000x256_1_0_0_1.resultIdx? (ix2 n k) idx = some (ix2 g k') ↔ (idx (ix2 n 0)).toInt = (g.val : ℤ) ∧ k = k' := by
  have s0 : scatter_S128x256_S100000x1_S100000x256_1_0_0_1.start (ix2 n k) idx 0 = (idx (ix2 n 0)).toInt := startR_0 (ix2 n k) idx
  have s1 := startR_1 (ix2 n k) idx
  have w0 := windowR_0 (ix2 n k)
  have w1 : scatter_S128x256_S100000x1_S100000x256_1_0_0_1.window (ix2 n k) 1 = k.val := windowR_1 (ix2 n k)
  unfold ScatterDims.resultIdx?
  constructor
  · intro he
    split at he
    · rename_i h
      have e := Option.some.inj he
      have e0 : (scatter_S128x256_S100000x1_S100000x256_1_0_0_1.start (ix2 n k) idx 0 + (scatter_S128x256_S100000x1_S100000x256_1_0_0_1.window (ix2 n k) 0 : ℤ)).toNat = g.val := congrArg Fin.val (congrFun e 0)
      have e1 : (scatter_S128x256_S100000x1_S100000x256_1_0_0_1.start (ix2 n k) idx 1 + (scatter_S128x256_S100000x1_S100000x256_1_0_0_1.window (ix2 n k) 1 : ℤ)).toNat = k'.val := congrArg Fin.val (congrFun e 1)
      have h0 := (h 0).1
      rw [s0, w0] at e0 h0
      rw [s1, w1] at e1
      refine ⟨?_, Fin.ext ?_⟩
      · omega
      · omega
    · cases he
  · rintro ⟨hg, rfl⟩
    have h : ∀ a, 0 ≤ scatter_S128x256_S100000x1_S100000x256_1_0_0_1.start (ix2 n k) idx a + scatter_S128x256_S100000x1_S100000x256_1_0_0_1.window (ix2 n k) a ∧ scatter_S128x256_S100000x1_S100000x256_1_0_0_1.start (ix2 n k) idx a + scatter_S128x256_S100000x1_S100000x256_1_0_0_1.window (ix2 n k) a < S128x256.size a := by
      intro a
      match a with
      | ⟨0, _⟩ =>
        have := g.isLt
        show 0 ≤ scatter_S128x256_S100000x1_S100000x256_1_0_0_1.start (ix2 n k) idx 0 + scatter_S128x256_S100000x1_S100000x256_1_0_0_1.window (ix2 n k) 0 ∧ scatter_S128x256_S100000x1_S100000x256_1_0_0_1.start (ix2 n k) idx 0 + scatter_S128x256_S100000x1_S100000x256_1_0_0_1.window (ix2 n k) 0 < (128 : ℕ)
        rw [s0, w0, hg]; omega
      | ⟨1, _⟩ =>
        have := k.isLt
        show 0 ≤ scatter_S128x256_S100000x1_S100000x256_1_0_0_1.start (ix2 n k) idx 1 + scatter_S128x256_S100000x1_S100000x256_1_0_0_1.window (ix2 n k) 1 ∧ scatter_S128x256_S100000x1_S100000x256_1_0_0_1.start (ix2 n k) idx 1 + scatter_S128x256_S100000x1_S100000x256_1_0_0_1.window (ix2 n k) 1 < (256 : ℕ)
        rw [s1, w1]; omega
    rw [dif_pos h]
    congr 1
    funext a
    match a with
    | ⟨0, _⟩ =>
      apply Fin.ext
      show (scatter_S128x256_S100000x1_S100000x256_1_0_0_1.start (ix2 n k) idx 0 + (scatter_S128x256_S100000x1_S100000x256_1_0_0_1.window (ix2 n k) 0 : ℤ)).toNat = g.val
      rw [s0, w0, hg]; omega
    | ⟨1, _⟩ =>
      apply Fin.ext
      show (scatter_S128x256_S100000x1_S100000x256_1_0_0_1.start (ix2 n k) idx 1 + (scatter_S128x256_S100000x1_S100000x256_1_0_0_1.window (ix2 n k) 1 : ℤ)).toNat = k.val
      rw [s1, w1]; omega

/-- The count scatter reads update `j`'s start index at row `j 0` of the index column. -/
theorem siIdxC (j : S100000.Idx) (c : Fin scatter_S128_S100000x1_S100000_n_0_0_1.scatterDimsToOperandDims.length) :
    scatter_S128_S100000x1_S100000_n_0_0_1.siIdx j c = ix2 (j 0) 0 := by
  funext b
  match b with
  | ⟨0, _⟩ => rfl
  | ⟨1, _⟩ =>
    apply Fin.ext
    have hc : c.val < 1 := c.isLt
    show c.val = 0
    omega

/-- Its window starts at the index word, read signed. -/
theorem startC_0 (j : S100000.Idx) (idx : IVec S100000x1 32) :
    scatter_S128_S100000x1_S100000_n_0_0_1.start j idx 0 = (idx (ix2 (j 0) 0)).toInt := by
  unfold ScatterDims.start
  rw [dif_pos (show (0 : Fin S128.rank) ∈ scatter_S128_S100000x1_S100000_n_0_0_1.scatterDimsToOperandDims by decide), siIdxC]
  rfl

/-- Its one axis is inserted: the window coordinate is zero. -/
theorem windowC_0 (j : S100000.Idx) : scatter_S128_S100000x1_S100000_n_0_0_1.window j 0 = 0 := by
  unfold ScatterDims.window
  rw [dif_neg (show ¬ (0 : Fin S128.rank) ∈ scatter_S128_S100000x1_S100000_n_0_0_1.sKept by decide)]

/-- Update `n` of the count scatter lands at `g` exactly when node `n`'s word reads `g`. -/
theorem resultIdxC (n : Fin 100000) (g : Fin 128) (idx : IVec S100000x1 32) :
    scatter_S128_S100000x1_S100000_n_0_0_1.resultIdx? (ix1 n) idx = some (ix1 g) ↔ (idx (ix2 n 0)).toInt = (g.val : ℤ) := by
  have s0 : scatter_S128_S100000x1_S100000_n_0_0_1.start (ix1 n) idx 0 = (idx (ix2 n 0)).toInt := startC_0 (ix1 n) idx
  have w0 := windowC_0 (ix1 n)
  unfold ScatterDims.resultIdx?
  constructor
  · intro he
    split at he
    · rename_i h
      have e := Option.some.inj he
      have e0 : (scatter_S128_S100000x1_S100000_n_0_0_1.start (ix1 n) idx 0 + (scatter_S128_S100000x1_S100000_n_0_0_1.window (ix1 n) 0 : ℤ)).toNat = g.val := congrArg Fin.val (congrFun e 0)
      have h0 := (h 0).1
      rw [s0, w0] at e0 h0
      omega
    · cases he
  · intro hg
    have h : ∀ a, 0 ≤ scatter_S128_S100000x1_S100000_n_0_0_1.start (ix1 n) idx a + scatter_S128_S100000x1_S100000_n_0_0_1.window (ix1 n) a ∧ scatter_S128_S100000x1_S100000_n_0_0_1.start (ix1 n) idx a + scatter_S128_S100000x1_S100000_n_0_0_1.window (ix1 n) a < S128.size a := by
      intro a
      match a with
      | ⟨0, _⟩ =>
        have := g.isLt
        show 0 ≤ scatter_S128_S100000x1_S100000_n_0_0_1.start (ix1 n) idx 0 + scatter_S128_S100000x1_S100000_n_0_0_1.window (ix1 n) 0 ∧ scatter_S128_S100000x1_S100000_n_0_0_1.start (ix1 n) idx 0 + scatter_S128_S100000x1_S100000_n_0_0_1.window (ix1 n) 0 < (128 : ℕ)
        rw [s0, w0, hg]; omega
    rw [dif_pos h]
    congr 1
    funext a
    match a with
    | ⟨0, _⟩ =>
      apply Fin.ext
      show (scatter_S128_S100000x1_S100000_n_0_0_1.start (ix1 n) idx 0 + (scatter_S128_S100000x1_S100000_n_0_0_1.window (ix1 n) 0 : ℤ)).toNat = g.val
      rw [s0, w0, hg]; omega

/-! ## The two scatters at an index

The sum over the updates that land at an index becomes a sum over all updates of a conditional term; the sum over the
channels of a node collapses to the one channel asked for. -/

/-- The rows scatter at group `g`, channel `k`: the operand there plus the sum over the nodes whose index word reads `g`. -/
theorem scatterR_at (x : S128x256.Idx → EReal) (idx : IVec S100000x1 32) (upd : S100000x256.Idx → EReal)
    (g : Fin 128) (k : Fin 256) :
    Ideal.hostScatterAdd scatter_S128x256_S100000x1_S100000x256_1_0_0_1 x idx upd (ix2 g k)
      = x (ix2 g k) + ∑ n : Fin 100000, if (idx (ix2 n 0)).toInt = (g.val : ℤ) then upd (ix2 n k) else 0 := by
  unfold Ideal.hostScatterAdd
  rw [Finset.sum_filter, sum_idx2]
  refine congrArg (fun t => x (ix2 g k) + t) (Finset.sum_congr rfl fun n _ => ?_)
  have hk : ∀ k'' : Fin 256, (if scatter_S128x256_S100000x1_S100000x256_1_0_0_1.resultIdx? (ix2 n k'') idx = some (ix2 g k) then upd (ix2 n k'') else 0)
      = if k'' = k then (if (idx (ix2 n 0)).toInt = (g.val : ℤ) then upd (ix2 n k) else 0) else 0 := by
    intro k''
    by_cases h1 : k'' = k
    · subst h1
      rw [if_pos rfl]
      exact if_congr ((resultIdxR n k'' g k'' idx).trans (and_iff_left rfl)) rfl rfl
    · rw [if_neg h1, if_neg]
      intro h
      exact h1 ((resultIdxR n k'' g k idx).1 h).2
  rw [Finset.sum_congr rfl (fun k'' _ => hk k''), Finset.sum_ite_eq', if_pos (Finset.mem_univ k)]

/-- The count scatter at group `g`. -/
theorem scatterC_at (x : S128.Idx → EReal) (idx : IVec S100000x1 32) (upd : S100000.Idx → EReal) (g : Fin 128) :
    Ideal.hostScatterAdd scatter_S128_S100000x1_S100000_n_0_0_1 x idx upd (ix1 g)
      = x (ix1 g) + ∑ n : Fin 100000, if (idx (ix2 n 0)).toInt = (g.val : ℤ) then upd (ix1 n) else 0 := by
  unfold Ideal.hostScatterAdd
  rw [Finset.sum_filter, ← Equiv.sum_comp (idxEquiv1 (n := 100000)).symm]
  refine congrArg (fun t => x (ix1 g) + t) (Finset.sum_congr rfl fun n _ => ?_)
  exact if_congr (resultIdxC n g idx) rfl rfl

/-! ## The chain of elementwise operations -/

section
variable (x0 : (⟨S100000x1, .f32⟩ : BufTy).Contents (Elt Ideal)) (x1 : (⟨S2x3200000, .i32⟩ : BufTy).Contents (Elt Ideal))
  (x2 : (⟨S100000, .i32⟩ : BufTy).Contents (Elt Ideal)) (x3 : (⟨S1x256, .f32⟩ : BufTy).Contents (Elt Ideal))
  (x4 : (⟨S256, .f32⟩ : BufTy).Contents (Elt Ideal))

/-- The hidden row of node `n` at channel `k`: the one-term contraction, the bias, the rectifier. -/
theorem v18_at (n : Fin 100000) (k : Fin 256) :
    val_main_v18 (F := Ideal) x0 x1 x3 x4 (ix2 n k) = Cert.Spec.hid (val_main_v13 (F := Ideal) x0 x1) x3 x4 n k := by
  rw [val_main_v18_apply, val_main_v17_apply, val_main_v14_apply, val_main_v16_apply, val_main_v15_apply,
    val_main_call0_v0_apply, val_main_call0_cst_apply, Fin.sum_univ_one]
  have e1 : lidx_main_v14 (ix2 n k) (0 : Fin 1) = ix2 n 0 := by
    funext a; match a with | ⟨0, _⟩ => rfl | ⟨1, _⟩ => rfl
  have e2 : ridx_main_v14 (ix2 n k) (0 : Fin 1) = ix2 0 k := by
    funext a; match a with | ⟨0, _⟩ => rfl | ⟨1, _⟩ => rfl
  have e3 : idx_main_v15 (idx_main_v16 (ix2 n k)) = ix1 k := by
    funext a; match a with | ⟨0, _⟩ => rfl
  rw [e1, e2, e3]
  show max (_ * _ + _) (Ideal.ofBits .f32 0x00000000#32) = _
  rw [Cert.Spec.ofBits_f32_zero]
  rfl

/-- The summed hidden rows of group `g` at channel `k`. -/
theorem v21_at (g : Fin 128) (k : Fin 256) :
    val_main_v21 (F := Ideal) x0 x1 x2 x3 x4 (ix2 g k)
      = Cert.Spec.seg x2 (fun i => Cert.Spec.hid (val_main_v13 (F := Ideal) x0 x1) x3 x4 i k) g := by
  unfold val_main_v21
  show Ideal.hostScatterAdd scatter_S128x256_S100000x1_S100000x256_1_0_0_1 (val_main_v19 (F := Ideal)) (val_main_v20 (F := Ideal) x2)
    (val_main_v18 (F := Ideal) x0 x1 x3 x4) (ix2 g k) = _
  rw [scatterR_at, val_main_v19_apply, val_main_cst_1_apply]
  show Ideal.ofBits .f32 0x00000000#32 + _ = _
  rw [Cert.Spec.ofBits_f32_zero, zero_add]
  unfold Cert.Spec.seg
  refine Finset.sum_congr rfl fun n _ => ?_
  have e : idx_main_v20 (ix2 n 0) = ix1 n := by
    funext a; match a with | ⟨0, _⟩ => rfl
  rw [val_main_v20_apply, v18_at, e]
  exact if_congr (Cert.Spec.word_eq_iff _ g).symm rfl rfl

/-- The size of group `g`. -/
theorem v25_at (g : Fin 128) :
    val_main_v25 (F := Ideal) x2 (ix1 g) = Cert.Spec.seg x2 (fun _ => 1) g := by
  unfold val_main_v25
  show Ideal.hostScatterAdd scatter_S128_S100000x1_S100000_n_0_0_1 (val_main_v23 (F := Ideal)) (val_main_v24 (F := Ideal) x2)
    (val_main_v22 (F := Ideal)) (ix1 g) = _
  rw [scatterC_at, val_main_v23_apply, val_main_cst_3_apply]
  show Ideal.ofBits .f32 0x00000000#32 + _ = _
  rw [Cert.Spec.ofBits_f32_zero, zero_add]
  unfold Cert.Spec.seg
  refine Finset.sum_congr rfl fun n _ => ?_
  have e : idx_main_v24 (ix2 n 0) = ix1 n := by
    funext a; match a with | ⟨0, _⟩ => rfl
  rw [val_main_v24_apply, val_main_v22_apply, val_main_cst_2_apply, e]
  show (if _ then Ideal.ofBits .f32 0x3F800000#32 else 0) = _
  rw [Cert.Spec.ofBits_f32_one]
  exact if_congr (Cert.Spec.word_eq_iff _ g).symm rfl rfl

/-- The divisor of group `g`, the same at every channel. -/
theorem v29_at (g : Fin 128) (k : Fin 256) :
    val_main_v29 (F := Ideal) x2 (ix2 g k) = max (Cert.Spec.seg x2 (fun _ => 1) g) 1 := by
  have e : idx_main_v28 (idx_main_v29 (ix2 g k)) = ix1 g := by
    funext a; match a with | ⟨0, _⟩ => rfl
  rw [val_main_v29_apply, val_main_v28_apply, val_main_v27_apply, val_main_v26_apply, val_main_cst_4_apply, e, v25_at]
  show max _ (Ideal.ofBits .f32 0x3F800000#32) = _
  rw [Cert.Spec.ofBits_f32_one]

/-- The mean hidden row of group `g` at channel `k`. -/
theorem v30_at (g : Fin 128) (k : Fin 256) :
    val_main_v30 (F := Ideal) x0 x1 x2 x3 x4 (ix2 g k) = Cert.Spec.pooled (val_main_v13 (F := Ideal) x0 x1) x3 x4 x2 g k := by
  rw [val_main_v30_apply, v21_at, v29_at]
  rfl

end

/-- The reference's result is `Spec.out` of its aggregated feature: the contraction over the 256 channels of the mean
    hidden rows, the bias, the rectifier. -/
theorem ref_eq (x0 : (⟨S100000x1, .f32⟩ : BufTy).Contents (Elt Ideal)) (x1 : (⟨S2x3200000, .i32⟩ : BufTy).Contents (Elt Ideal))
    (x2 : (⟨S100000, .i32⟩ : BufTy).Contents (Elt Ideal)) (x3 : (⟨S1x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) :
    val_main_v35 (F := Ideal) x0 x1 x2 x3 x4 x5 x6
      = Cert.Spec.out (val_main_v13 (F := Ideal) x0 x1) x3 x4 x2 x5 x6 := by
  funext j
  have hj : j 1 = (0 : Fin 1) := by
    have h : (j 1).val < 1 := (j 1).isLt
    exact Fin.ext (by show (j 1).val = 0; omega)
  have el : ∀ k : Fin 256, lidx_main_v31 j k = ix2 (j 0) k := by
    intro k; funext a; match a with | ⟨0, _⟩ => rfl | ⟨1, _⟩ => rfl
  have er : ∀ k : Fin 256, ridx_main_v31 j k = ix2 k 0 := by
    intro k; funext a; match a with | ⟨0, _⟩ => rfl | ⟨1, _⟩ => exact hj
  have eb : idx_main_v32 (idx_main_v33 j) = ix1 0 := by
    funext a; match a with | ⟨0, _⟩ => rfl
  rw [val_main_v35_apply, val_main_v34_apply, val_main_v31_apply, val_main_v33_apply, val_main_v32_apply,
    val_main_call1_v0_apply, val_main_call1_cst_apply, eb]
  simp only [el, er]
  show max (_ + _) (Ideal.ofBits .f32 0x00000000#32) = _
  rw [Cert.Spec.ofBits_f32_zero]
  unfold Cert.Spec.out
  refine congrArg (fun t => max (t + x6 (ix1 0)) 0) (Finset.sum_congr rfl fun k _ => ?_)
  exact congrArg (fun t => t * x5 (ix2 k 0)) (v30_at x0 x1 x2 x3 x4 (j 0) k)

end Cert.RefValue

end
-- ==== Proof.Claims.lean ====
/-
  The five claims.

  Both idealized programs compute the same function of their arguments, `Spec.out`: the kernel adds one-hot
  products block by block over a grid of two rows of ten blocks and finishes on the host; the reference pools the
  hidden rows by two accumulating scatters. The aggregated feature `agg`, which both compute first by the same
  gather and scatter of the same arguments, is one term on the two sides (`agg_eq`). Only commutativity and
  associativity of the extended reals' addition, `x * 1 = x`, `x * 0 = 0` and `0 + x = x` are used, so the
  precondition is never opened. The three frames are the generated frame runs of the two kernel programs and the
  reference's run with its result dropped; the ideal pass rewrote nothing, so `preserves` is trivial.
-/
import proofs.«425223_j47485158425103_2_alg».proof.Defs
import proofs.«425223_j47485158425103_2_alg».proof.Proof.Gen.Kernel.Frame
import proofs.«425223_j47485158425103_2_alg».proof.Proof.Gen.KernelIdeal.Frame
import proofs.«425223_j47485158425103_2_alg».proof.Proof.Gen.ReferenceIdeal.Run
import proofs.«425223_j47485158425103_2_alg».proof.Proof.Gen.ReferenceIdeal.Read
import proofs.«425223_j47485158425103_2_alg».proof.Proof.Gen.Pre_finite_inputs
import proofs.«425223_j47485158425103_2_alg».proof.Proof.KTail
import proofs.«425223_j47485158425103_2_alg».proof.Proof.RefValue

noncomputable section

open Idealize.ShloMosaic Idealize.ShloMosaic.TcCoe Idealize.SL.Sem

namespace Cert.Proof.PoolClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' aggregated feature is one term of the arguments (stated for any float values, so that the
    operations stay symbols and the two terms are compared as written). -/
theorem agg_eq {F : FTy → Type} [FloatOps F] (x0 : FVec F Cert.KernelIdeal.S100000x1 .f32) (x1 : IVec Cert.KernelIdeal.S2x3200000 32) :
    Cert.KernelIdeal.KValue.aggK (F := F) x0 x1 = Cert.ReferenceIdeal.Read.val_main_v13 (F := F) x0 x1 := rfl

/-- At the extended reals the kernel's result array ends at `Spec.out` of its arguments (the kernel's run, read) and
    the reference's at `Spec.out` of its own (its generated run and the reading of its two pooling scatters), and
    the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v35_eq, Cert.RefValue.ref_eq, e0, e1, e2, e3, e4, e5, e6, ← agg_eq]

end Cert.Proof.PoolClaims

end
-- ==== Proof.lean ====
/-
  The proof of `Cert.Claim`: a graph network's pooling layer, kernel against reference, over the extended reals.

  Each node's aggregated feature goes through a hidden layer of 256 rectified channels; the hidden rows of the nodes
  of each of 128 groups are averaged; the averages go through an output layer and a rectifier. The kernel pools by
  multiplying the hidden block with a one-hot block of the group words, 5120 nodes at a time, over two cores' ten
  blocks each, padding the 100000 nodes to 102400 with a word that is no group's; the reference pools by two
  accumulating scatters. Proof/Spec.lean states the common function; Proof/Pieces.lean, Proof/Payload.lean,
  Proof/KBlocks.lean, Proof/KAccum.lean and Proof/KTail.lean read the kernel's run as that function (the stores of
  one run of the body, the body's arithmetic at an index, the arrays before the region, the accumulation over the
  grid, the operations after the region); Proof/RefValue.lean reads the reference's run as it; Proof/PoolSum.lean
  has the two re-arrangements of finite sums; Proof/Claims.lean assembles the five claims behind the witnesses of the
  programs' stated facts.
-/
import proofs.«425223_j47485158425103_2_alg».proof.Defs
import proofs.«425223_j47485158425103_2_alg».proof.Proof.Gen.Kernel
import proofs.«425223_j47485158425103_2_alg».proof.Proof.Gen.Kernel.Skeleton
import proofs.«425223_j47485158425103_2_alg».proof.Proof.Gen.Kernel.Launch
import proofs.«425223_j47485158425103_2_alg».proof.Proof.Gen.Kernel.Points
import proofs.«425223_j47485158425103_2_alg».proof.Proof.Gen.Kernel.Frame
import proofs.«425223_j47485158425103_2_alg».proof.Proof.Gen.KernelIdeal
import proofs.«425223_j47485158425103_2_alg».proof.Proof.Gen.KernelIdeal.Skeleton
import proofs.«425223_j47485158425103_2_alg».proof.Proof.Gen.KernelIdeal.Launch
import proofs.«425223_j47485158425103_2_alg».proof.Proof.Gen.KernelIdeal.Points
import proofs.«425223_j47485158425103_2_alg».proof.Proof.Gen.KernelIdeal.Frame
import proofs.«425223_j47485158425103_2_alg».proof.Proof.Gen.ReferenceIdeal
import proofs.«425223_j47485158425103_2_alg».proof.Proof.Gen.Pre_finite_inputs
import proofs.«425223_j47485158425103_2_alg».proof.Proof.Gen.ReferenceIdeal.Run
import proofs.«425223_j47485158425103_2_alg».proof.Proof.Gen.ReferenceIdeal.Read
import proofs.«425223_j47485158425103_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  PoolClaims.frame_k, PoolClaims.frame_ki, PoolClaims.frame_ri, PoolClaims.preserves, PoolClaims.algebraic⟩

end Cert.Proof

end
